-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1024x128 .f32) (main_arg1 : FVec F S1x1x1024x1024 .f32) (main_arg2 : FVec F S128x128 .f32) (main_arg3 : FVec F S128 .f32) (main_arg4 : FVec F S128x128 .f32) (main_arg5 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1x1x1024x1024 .f32 := Host.absf main_arg1
  let main_cst_0 : FVec F S_ .f32 := constant S_ .f32 0x7F800000#32
  let main_v5 : FVec F S1x1x1024x1024 .f32 := broadcastInDim S1x1x1024x1024 ![] bcast_S_S1x1x1024x1024 main_cst_0
  let main_v6 : IVec S1x1x1024x1024 1 := cmpf .olt main_v4 main_v5
  let main_c_1 : IVec S_ 1 := constantI S_ 1 1#1
  let main_v7 : IVec S_ 1 := (fun x v => Host.reduce IntOp.andi x v reducesTo_S1x1x1024x1024_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S1024x1024 : Shape := ⟨2, ![1024, 1024]⟩
abbrev S1x128 : Shape := ⟨2, ![1, 128]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1x1x1024x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1024x1024, .f32⟩
  | .hbm, ⟨7, _⟩ => ⟨S1x128, .f32⟩
  | .hbm, ⟨8, _⟩ => ⟨S1x128, .f32⟩
  | .hbm, ⟨9, _⟩ => ⟨S1024x128, .f32⟩
  | .local _ .vmem, ⟨0, _⟩ => ⟨S1024x128, .f32⟩
  | .local _ .vmem, ⟨1, _⟩ => ⟨S1024x1024, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  shapeCasts_S1x1x1024x1024_S1024x1024 : S1x1x1024x1024.ShapeCasts S1024x1024
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  broadcasts_S1024x1_S1024x128 : S1024x1.Broadcasts S1024x128
  dot_S1024x1024_S1024x1_S1024x1_0_0_1_1_n_n_wf : DotDims.WF S1024x1024 S1024x1 S1024x1 [0] [0] [1] [1] [] []
  dot_S1024x128_S128x128_S1024x128_1_1_0_0_n_n_wf : DotDims.WF S1024x128 S128x128 S1024x128 [1] [1] [0] [0] [] []
  dot_S1024x1024_S1024x128_S1024x128_0_0_1_1_n_n_wf : DotDims.WF S1024x1024 S1024x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v2) false false (stage0_5 0) (sem0_5 0) (Memref.isWhole_whole _) (hstage0_5 0)

abbrev win0_6 : Pipeline.Window sig grid0 :=
  Pipeline.Window.whole (Memref.whole main_v3) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x1024x1024 : Shape := ⟨3, ![1, 1024, 1024]⟩
abbrev S1024x1024 : Shape := ⟨2, ![1024, 1024]⟩
abbrev S1048576 : Shape := ⟨1, ![1048576]⟩
abbrev S1x1048576 : Shape := ⟨2, ![1, 1048576]⟩
abbrev S2x1048576 : Shape := ⟨2, ![2, 1048576]⟩
abbrev S1024 : Shape := ⟨1, ![1024]⟩
abbrev S1049600 : Shape := ⟨1, ![1049600]⟩
abbrev S1049600x1 : Shape := ⟨2, ![1049600, 1]⟩
abbrev S1049600x128 : Shape := ⟨2, ![1049600, 128]⟩

abbrev nBuf : Space → Nat
  | .hbm => 144
  | .vmem => 0
  | .smem => 0
  | _ => 0

abbrev hbmTy0_0 (i : Nat) : BufTy := match i % 128 with
  | 0 => ⟨S1024x128, .f32⟩
  | 1 => ⟨S1x1x1024x1024, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S1024x128, .f32⟩
  | 8 => ⟨S1x128, .f32⟩
  | 9 => ⟨S1024x128, .f32⟩
  | 10 => ⟨S1024x128, .f32⟩
  | 11 => ⟨S_, .f32⟩
  | 12 => ⟨S1024x128, .f32⟩
  | 13 => ⟨S1024x128, .f32⟩
  | 14 => ⟨S1x1024x1024, .f32⟩
  | 15 => ⟨S1024x1024, .f32⟩
  | 16 => ⟨S1048576, .i32⟩
  | 17 => ⟨S_, .i32⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S1048576, .i32⟩
  | 26 => ⟨S1048576, .i32⟩
  | 27 => ⟨S_, .i32⟩
  | 28 => ⟨S1048576, .i32⟩
  | 29 => ⟨S1048576, .i1⟩
  | 30 => ⟨S1048576, .i1⟩
  | 31 => ⟨S_, .i32⟩
  | 32 => ⟨S1048576, .i32⟩
  | 33 => ⟨S1048576, .i32⟩
  | 34 => ⟨S1048576, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i1⟩
  | 49 => ⟨S_, .i32⟩
  | 50 => ⟨S_, .i1⟩
  | 51 => ⟨S1048576, .i1⟩
  | 52 => ⟨S1048576, .i1⟩
  | 53 => ⟨S1048576, .i1⟩
  | 54 => ⟨S1048576, .i32⟩
  | 55 => ⟨S1048576, .i32⟩
  | 56 => ⟨S1048576, .i32⟩
  | 57 => ⟨S1x1048576, .i32⟩
  | 58 => ⟨S1x1048576, .i32⟩
  | 59 => ⟨S2x1048576, .i32⟩
  | 60 => ⟨S1048576, .f32⟩
  | 61 => ⟨S_, .f32⟩
  | 62 => ⟨S1048576, .f32⟩
  | 63 => ⟨S1048576, .i1⟩
  | 64 => ⟨S1048576, .f32⟩
  | 65 => ⟨S1x1048576, .i32⟩
  | 66 => ⟨S1048576, .i32⟩
  | 67 => ⟨S1x1048576, .i32⟩
  | 68 => ⟨S1048576, .i32⟩
  | 69 => ⟨S1024, .i32⟩
  | 70 => ⟨S1049600, .i32⟩
  | 71 => ⟨S1049600, .i32⟩
  | 72 => ⟨S_, .f32⟩
  | 73 => ⟨S1024, .f32⟩
  | 74 => ⟨S1049600, .f32⟩
  | 75 => ⟨S_, .f32⟩
  | 76 => ⟨S1024, .f32⟩
  | 77 => ⟨S_, .i32⟩
  | 78 => ⟨S1049600, .i32⟩
  | 79 => ⟨S1049600, .i1⟩
  | 80 => ⟨S_, .i32⟩
  | 81 => ⟨S1049600, .i32⟩
  | 82 => ⟨S1049600, .i32⟩
  | 83 => ⟨S1049600, .i32⟩
  | 84 => ⟨S1049600x1, .i32⟩
  | 85 => ⟨S1024, .f32⟩
  | 86 => ⟨S_, .f32⟩
  | 87 => ⟨S1024, .f32⟩
  | 88 => ⟨S1024, .i1⟩
  | 89 => ⟨S_, .f32⟩
  | 90 => ⟨S1024, .f32⟩
  | 91 => ⟨S1024, .f32⟩
  | 92 => ⟨S_, .f32⟩
  | 93 => ⟨S_, .f32⟩
  | 94 => ⟨S1024, .f32⟩
  | 95 => ⟨S1024, .f32⟩
  | 96 => ⟨S_, .i32⟩
  | 97 => ⟨S1049600, .i32⟩
  | 98 => ⟨S1049600, .i1⟩
  | 99 => ⟨S_, .i32⟩
  | 100 => ⟨S1049600, .i32⟩
  | 101 => ⟨S1049600, .i32⟩
  | 102 => ⟨S1049600, .i32⟩
  | 103 => ⟨S1049600x1, .i32⟩
  | 104 => ⟨S1049600, .f32⟩
  | 105 => ⟨S_, .i32⟩
  | 106 => ⟨S1049600, .i32⟩
  | 107 => ⟨S1049600, .i1⟩
  | 108 => ⟨S_, .i32⟩
  | 109 => ⟨S1049600, .i32⟩
  | 110 => ⟨S1049600, .i32⟩
  | 111 => ⟨S1049600, .i32⟩
  | 112 => ⟨S1049600x1, .i32⟩
  | 113 => ⟨S1049600, .f32⟩
  | 114 => ⟨S1049600, .f32⟩
  | 115 => ⟨S1049600, .f32⟩
  | 116 => ⟨S128x128, .f32⟩
  | 117 => ⟨S1024x128, .f32⟩
  | 118 => ⟨S1049600x1, .f32⟩
  | 119 => ⟨S_, .i32⟩
  | 120 => ⟨S1049600, .i32⟩
  | 121 => ⟨S1049600, .i1⟩
  | 122 => ⟨S_, .i32⟩
  | 123 => ⟨S1049600, .i32⟩
  | 124 => ⟨S1049600, .i32⟩
  | 125 => ⟨S1049600, .i32⟩
  | 126 => ⟨S1049600x1, .i32⟩
  | 127 => ⟨S1049600x128, .f32⟩
  | _ => ⟨S1024x128, .f32⟩

abbrev hbmTy0_1 (i : Nat) : BufTy := match i % 128 with
  | 0 => ⟨S1049600x128, .f32⟩
  | 1 => ⟨S1049600x128, .f32⟩
  | 2 => ⟨S_, .f32⟩
  | 3 => ⟨S1024x128, .f32⟩
  | 4 => ⟨S_, .i32⟩
  | 5 => ⟨S1049600, .i32⟩
  | 6 => ⟨S1049600, .i1⟩
  | 7 => ⟨S_, .i32⟩
  | 8 => ⟨S1049600, .i32⟩
  | 9 => ⟨S1049600, .i32⟩
  | 10 => ⟨S1049600, .i32⟩
  | 11 => ⟨S1049600x1, .i32⟩
  | 12 => ⟨S1024x128, .f32⟩
  | 13 => ⟨S1x128, .f32⟩
  | 14 => ⟨S1024x128, .f32⟩
  | 15 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v9 : Ref sig .tc := ⟨.hbm, 34, rfl⟩
abbrev main_c_0 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_1 : Ref sig .tc := ⟨.hbm, 72, rfl⟩
abbrev main_v25 : Ref sig .tc := ⟨.hbm, 73, rfl⟩
abbrev main_v26 : Ref sig .tc := ⟨.hbm, 74, rfl⟩
abbrev main_cst_2 : Ref sig .tc := ⟨.hbm, 75, rfl⟩
abbrev main_v27 : Ref sig .tc := ⟨.hbm, 76, rfl⟩
abbrev main_c_3 : Ref sig .tc := ⟨.hbm, 77, rfl⟩
abbrev main_v28 : Ref sig .tc := ⟨.hbm, 78, rfl⟩
abbrev main_v29 : Ref sig .tc := ⟨.hbm, 79, rfl⟩
abbrev main_c_4 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_5 : Ref sig .tc := ⟨.hbm, 86, rfl⟩
abbrev main_v35 : Ref sig .tc := ⟨.hbm, 87, rfl⟩
abbrev main_v36 : Ref sig .tc := ⟨.hbm, 88, rfl⟩
abbrev main_cst_6 : Ref sig .tc := ⟨.hbm, 89, rfl⟩
abbrev main_v37 : Ref sig .tc := ⟨.hbm, 90, rfl⟩
abbrev main_v38 : Ref sig .tc := ⟨.hbm, 91, rfl⟩
abbrev main_cst_7 : Ref sig .tc := ⟨.hbm, 92, rfl⟩
abbrev main_call3_v0 : Ref sig .tc := ⟨.hbm, 93, rfl⟩
abbrev main_call3_v1 : Ref sig .tc := ⟨.hbm, 94, rfl⟩
abbrev main_v39 : Ref sig .tc := ⟨.hbm, 95, rfl⟩
abbrev main_c_8 : Ref sig .tc := ⟨.hbm, 96, rfl⟩
abbrev main_v40 : Ref sig .tc := ⟨.hbm, 97, rfl⟩
abbrev main_v41 : Ref sig .tc := ⟨.hbm, 98, rfl⟩
abbrev main_c_9 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_10 : Ref sig .tc := ⟨.hbm, 105, rfl⟩
abbrev main_v47 : Ref sig .tc := ⟨.hbm, 106, rfl⟩
abbrev main_v48 : Ref sig .tc := ⟨.hbm, 107, rfl⟩
abbrev main_c_11 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_c_12 : Ref sig .tc := ⟨.hbm, 119, rfl⟩
abbrev main_v59 : Ref sig .tc := ⟨.hbm, 120, rfl⟩
abbrev main_v60 : Ref sig .tc := ⟨.hbm, 121, rfl⟩
abbrev main_c_13 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_14 : Ref sig .tc := ⟨.hbm, 130, rfl⟩
abbrev main_v68 : Ref sig .tc := ⟨.hbm, 131, rfl⟩
abbrev main_c_15 : Ref sig .tc := ⟨.hbm, 132, rfl⟩
abbrev main_v69 : Ref sig .tc := ⟨.hbm, 133, rfl⟩
abbrev main_v70 : Ref sig .tc := ⟨.hbm, 134, rfl⟩
abbrev main_c_16 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  shapeCasts_S1x1x1024x1024_S1x1024x1024 : S1x1x1024x1024.ShapeCasts S1x1024x1024
  shapeCasts_S1x1024x1024_S1024x1024 : S1x1024x1024.ShapeCasts S1024x1024
  bcast_S_S1048576 : S_.BroadcastsInDim S1048576 (![] : Fin 0 → Fin S1048576.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S1024x1024_S1048576 : S1024x1024.ShapeCasts S1048576
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S1049600x1_S1049600x128_0_1 : S1049600x1.BroadcastsInDim S1049600x128 (![0, 1] : Fin 2 → Fin S1049600x128.rank)
  dot_S1024x128_S128x128_S1024x128_1_0_0_1_n_n_wf : DotDims.WF S1024x128 S128x128 S1024x128 [1] [0] [0] [1] [] []
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.Spec.lean ====
/-
  The mathematics of the graph-convolution layer, stated once over the extended reals, free of any program.

  An adjacency array A (1024 × 1024) gives every ordered node pair (r, c) the weight 1 when A r c ≠ 0 and 0 otherwise;
  every node also carries a self loop of weight 1.  The degree of node c is the sum of the weights of the edges that end
  in c, the self loop included, and the normaliser of c is the reciprocal square root of its degree.  The features pass
  through a rectified linear layer (`hid`) and a second linear map (`xw`).

  Two spellings of the layer's output are stated:
  * `G`, the DENSE form: out c f = dinv c · (Σ_r wgt r c · (dinv r · xw r f) + dinv c · xw c f) + bias f;
  * `R`, the EDGE-LIST form: the 1024·1024 + 1024 edges are numbered e = 1024 r + c for the pair (r, c) and
    e = 1048576 + i for the self loop of node i; the degree is the sum over the edges ending in c of their weights,
    the normaliser is degree ^ (−1/2) where the degree is positive and 0 elsewhere, the message of edge e is
    (norm (row e) · norm (col e) · weight e) · xw (row e) f, and out c f is the sum of the messages of the edges ending
    in c, plus the bias.
  That the two agree on finite features is the content of the bridge module.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

/-! ## The dense form -/

/-- The weight of the ordered pair (r, c): 1 where the adjacency entry is not zero, 0 where it is. -/
def wgt (A : Fin 1024 → Fin 1024 → EReal) (r c : Fin 1024) : EReal := if A r c ≠ 0 then 1 else 0

/-- The degree of node c: the weights of the pairs ending in c, and 1 for its self loop. -/
def deg (A : Fin 1024 → Fin 1024 → EReal) (c : Fin 1024) : EReal := (∑ r, wgt A r c) + 1

/-- The normaliser of node c: the reciprocal square root of its degree. -/
def dinv (A : Fin 1024 → Fin 1024 → EReal) (c : Fin 1024) : EReal := Ideal.rsqrt (deg A c)

/-- The hidden layer: the rectified affine image of the features, `max (Σ_k X n k · W1 j k + B1 j) 0`. -/
def hid (X : Fin 1024 → Fin 128 → EReal) (W1 : Fin 128 → Fin 128 → EReal) (B1 : Fin 128 → EReal)
    (n : Fin 1024) (j : Fin 128) : EReal := max ((∑ k, X n k * W1 j k) + B1 j) 0

/-- The second linear map applied to the hidden layer: `Σ_j hid n j · Wg f j`. -/
def xw (X : Fin 1024 → Fin 128 → EReal) (W1 : Fin 128 → Fin 128 → EReal) (B1 : Fin 128 → EReal)
    (Wg : Fin 128 → Fin 128 → EReal) (n : Fin 1024) (f : Fin 128) : EReal := ∑ j, hid X W1 B1 n j * Wg f j

/-- THE DENSE FORM of the layer's output at node c, feature f. -/
def G (A : Fin 1024 → Fin 1024 → EReal) (X : Fin 1024 → Fin 128 → EReal) (W1 : Fin 128 → Fin 128 → EReal)
    (B1 : Fin 128 → EReal) (Wg : Fin 128 → Fin 128 → EReal) (Bg : Fin 128 → EReal) (c : Fin 1024) (f : Fin 128) : EReal :=
  dinv A c * ((∑ r, wgt A r c * (dinv A r * xw X W1 B1 Wg r f)) + dinv A c * xw X W1 B1 Wg c f) + Bg f

/-! ## The edge-list form -/

/-- The source node of edge e: e / 1024 for a pair, i for the self loop 1048576 + i. -/
def rowOf (e : Fin 1049600) : Fin 1024 :=
  if h : e.val < 1048576 then ⟨e.val / 1024, by omega⟩ else ⟨e.val - 1048576, by omega⟩

/-- The target node of edge e: e % 1024 for a pair, i for the self loop 1048576 + i. -/
def colOf (e : Fin 1049600) : Fin 1024 :=
  if h : e.val < 1048576 then ⟨e.val % 1024, by omega⟩ else ⟨e.val - 1048576, by omega⟩

/-- The weight of edge e: the pair's weight, or 1 for a self loop. -/
def ew (A : Fin 1024 → Fin 1024 → EReal) (e : Fin 1049600) : EReal :=
  if e.val < 1048576 then wgt A (rowOf e) (colOf e) else 1

/-- The degree of node c, summed over the edge list. -/
def degR (A : Fin 1024 → Fin 1024 → EReal) (c : Fin 1024) : EReal :=
  ∑ e ∈ Finset.univ.filter (fun e : Fin 1049600 => colOf e = c), ew A e

/-- The normaliser over the edge list: degree ^ (−1/2) where the degree is positive, 0 elsewhere
    (the exponent is the float word of −0.5, kept as a word). -/
def dinvR (A : Fin 1024 → Fin 1024 → EReal) (c : Fin 1024) : EReal :=
  if 0 < degR A c then Ideal.pow (degR A c) (Ideal.ofBits .f32 0xBF000000#32) else 0

/-- THE EDGE-LIST FORM of the layer's output at node c, feature f. -/
def R (A : Fin 1024 → Fin 1024 → EReal) (X : Fin 1024 → Fin 128 → EReal) (W1 : Fin 128 → Fin 128 → EReal)
    (B1 : Fin 128 → EReal) (Wg : Fin 128 → Fin 128 → EReal) (Bg : Fin 128 → EReal) (c : Fin 1024) (f : Fin 128) : EReal :=
  (∑ e ∈ Finset.univ.filter (fun e : Fin 1049600 => colOf e = c),
      ((dinvR A (rowOf e) * dinvR A (colOf e)) * ew A e) * xw X W1 B1 Wg (rowOf e) f) + Bg f

/-! ## The forms as arrays of the program's argument arrays -/

/-- The adjacency array [1, 1, 1024, 1024] as a matrix. -/
def adjOf (a : (⟨4, ![1, 1, 1024, 1024]⟩ : Shape).Idx → EReal) : Fin 1024 → Fin 1024 → EReal :=
  fun r c => a (ix4 0 0 r c)
/-- A rank-2 array as a function of its two coordinates. -/
def matOf {n0 n1 : Nat} (x : (⟨2, ![n0, n1]⟩ : Shape).Idx → EReal) : Fin n0 → Fin n1 → EReal := fun p q => x (ix2 p q)
/-- A rank-1 array as a function of its coordinate. -/
def vecOf {n : Nat} (b : (⟨1, ![n]⟩ : Shape).Idx → EReal) : Fin n → EReal := fun q => b (ix1 q)

/-- The dense form as the [1024, 128] output array of the six argument arrays. -/
def GArr (x : (⟨2, ![1024, 128]⟩ : Shape).Idx → EReal) (a : (⟨4, ![1, 1, 1024, 1024]⟩ : Shape).Idx → EReal)
    (w1 : (⟨2, ![128, 128]⟩ : Shape).Idx → EReal) (b1 : (⟨1, ![128]⟩ : Shape).Idx → EReal)
    (wg : (⟨2, ![128, 128]⟩ : Shape).Idx → EReal) (bg : (⟨1, ![128]⟩ : Shape).Idx → EReal) :
    (⟨2, ![1024, 128]⟩ : Shape).Idx → EReal :=
  fun i => G (adjOf a) (matOf x) (matOf w1) (vecOf b1) (matOf wg) (vecOf bg) (idxEquiv2 i).1 (idxEquiv2 i).2

/-- An array that reads as the dense form at every pair of coordinates IS the dense-form array. -/
theorem eq_GArr_of (x : (⟨2, ![1024, 128]⟩ : Shape).Idx → EReal) (a : (⟨4, ![1, 1, 1024, 1024]⟩ : Shape).Idx → EReal)
    (w1 : (⟨2, ![128, 128]⟩ : Shape).Idx → EReal) (b1 : (⟨1, ![128]⟩ : Shape).Idx → EReal)
    (wg : (⟨2, ![128, 128]⟩ : Shape).Idx → EReal) (bg : (⟨1, ![128]⟩ : Shape).Idx → EReal)
    (arr : (⟨2, ![1024, 128]⟩ : Shape).Idx → EReal)
    (h : ∀ (c : Fin 1024) (f : Fin 128),
      arr (ix2 c f) = G (adjOf a) (matOf x) (matOf w1) (vecOf b1) (matOf wg) (vecOf bg) c f) :
    arr = GArr x a w1 b1 wg bg := by
  funext i
  obtain ⟨c, f, rfl⟩ : ∃ (c : Fin 1024) (f : Fin 128), i = ix2 c f := ⟨i 0, i 1, eq_ix2 i⟩
  exact h c f

end Cert.Spec

end
-- ==== Proof.Bridge.lean ====
/-
  The edge-list form of the layer equals its dense form on finite features.
-/
import proofs.«110136_g88562225643607_cont_sun_c4_858_3_alg».proof.Proof.Spec
import Mathlib.Analysis.SpecialFunctions.Pow.Real
import Mathlib.Data.Fintype.BigOperators

noncomputable section

open scoped BigOperators

namespace Cert.Spec

open Idealize.ShloMosaic

/-! ## Coercions of finite real sums -/

/-- The coercion of a finite sum of reals is the sum of the coercions. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The weights are the reals 0 and 1 -/

/-- The weight of the pair (r, c) as a real number. -/
private def wR (A : Fin 1024 → Fin 1024 → EReal) (r c : Fin 1024) : ℝ := if A r c ≠ 0 then 1 else 0

private theorem wgt_eq (A : Fin 1024 → Fin 1024 → EReal) (r c : Fin 1024) :
    wgt A r c = ((wR A r c : ℝ) : EReal) := by
  unfold wgt wR
  by_cases h : A r c ≠ 0
  · rw [if_pos h, if_pos h, EReal.coe_one]
  · rw [if_neg h, if_neg h, EReal.coe_zero]

private theorem wR_nonneg (A : Fin 1024 → Fin 1024 → EReal) (r c : Fin 1024) : 0 ≤ wR A r c := by
  unfold wR
  by_cases h : A r c ≠ 0
  · rw [if_pos h]; exact zero_le_one
  · rw [if_neg h]

/-! ## The edges: pairs and self loops -/

/-- The edge of the ordered pair (r, c). -/
private def pair (r c : Fin 1024) : Fin 1049600 := ⟨1024 * r.val + c.val, by omega⟩
/-- The self loop of node i. -/
private def loop (i : Fin 1024) : Fin 1049600 := ⟨1048576 + i.val, by omega⟩

private theorem rowOf_pair (r c : Fin 1024) : rowOf (pair r c) = r := by
  have h : (pair r c).val < 1048576 := by show 1024 * r.val + c.val < 1048576; omega
  unfold rowOf
  rw [dif_pos h]
  apply Fin.ext
  show (1024 * r.val + c.val) / 1024 = r.val
  omega

private theorem colOf_pair (r c : Fin 1024) : colOf (pair r c) = c := by
  have h : (pair r c).val < 1048576 := by show 1024 * r.val + c.val < 1048576; omega
  unfold colOf
  rw [dif_pos h]
  apply Fin.ext
  show (1024 * r.val + c.val) % 1024 = c.val
  omega

private theorem ew_pair (A : Fin 1024 → Fin 1024 → EReal) (r c : Fin 1024) : ew A (pair r c) = wgt A r c := by
  have h : (pair r c).val < 1048576 := by show 1024 * r.val + c.val < 1048576; omega
  unfold ew
  rw [if_pos h, rowOf_pair, colOf_pair]

private theorem rowOf_loop (i : Fin 1024) : rowOf (loop i) = i := by
  have h : ¬ (loop i).val < 1048576 := by show ¬ (1048576 + i.val < 1048576); omega
  unfold rowOf
  rw [dif_neg h]
  apply Fin.ext
  show 1048576 + i.val - 1048576 = i.val
  omega

private theorem colOf_loop (i : Fin 1024) : colOf (loop i) = i := by
  have h : ¬ (loop i).val < 1048576 := by show ¬ (1048576 + i.val < 1048576); omega
  unfold colOf
  rw [dif_neg h]
  apply Fin.ext
  show 1048576 + i.val - 1048576 = i.val
  omega

private theorem ew_loop (A : Fin 1024 → Fin 1024 → EReal) (i : Fin 1024) : ew A (loop i) = 1 := by
  have h : ¬ (loop i).val < 1048576 := by show ¬ (1048576 + i.val < 1048576); omega
  unfold ew
  rw [if_neg h]

/-- The pair or self loop that an edge is. -/
private def edgeInv (e : Fin 1049600) : (Fin 1024 × Fin 1024) ⊕ Fin 1024 :=
  if h : e.val < 1048576 then Sum.inl (⟨e.val / 1024, by omega⟩, ⟨e.val % 1024, by omega⟩)
  else Sum.inr ⟨e.val - 1048576, by omega⟩

private theorem edgeInv_pair (r c : Fin 1024) : edgeInv (pair r c) = Sum.inl (r, c) := by
  have h : (pair r c).val < 1048576 := by show 1024 * r.val + c.val < 1048576; omega
  unfold edgeInv
  rw [dif_pos h]
  refine congrArg Sum.inl ?_
  apply Prod.ext
  · apply Fin.ext; show (1024 * r.val + c.val) / 1024 = r.val; omega
  · apply Fin.ext; show (1024 * r.val + c.val) % 1024 = c.val; omega

private theorem edgeInv_loop (i : Fin 1024) : edgeInv (loop i) = Sum.inr i := by
  have h : ¬ (loop i).val < 1048576 := by
    intro h'
    have h'' : 1048576 + i.val < 1048576 := h'
    omega
  unfold edgeInv
  rw [dif_neg h]
  refine congrArg Sum.inr ?_
  apply Fin.ext
  have : (loop i).val = 1048576 + i.val := rfl
  show (loop i).val - 1048576 = i.val
  omega

private theorem edge_of_edgeInv (e : Fin 1049600) :
    Sum.elim (fun p : Fin 1024 × Fin 1024 => pair p.1 p.2) loop (edgeInv e) = e := by
  unfold edgeInv
  by_cases h : e.val < 1048576
  · rw [dif_pos h]
    apply Fin.ext
    show 1024 * (e.val / 1024) + e.val % 1024 = e.val
    omega
  · rw [dif_neg h]
    apply Fin.ext
    show 1048576 + (e.val - 1048576) = e.val
    omega

/-- The edges are the pairs and the self loops, each once. -/
private def edgeEquiv : (Fin 1024 × Fin 1024) ⊕ Fin 1024 ≃ Fin 1049600 where
  toFun := Sum.elim (fun p => pair p.1 p.2) loop
  invFun := edgeInv
  left_inv x := by
    rcases x with ⟨r, c⟩ | i
    · exact edgeInv_pair r c
    · exact edgeInv_loop i
  right_inv e := edge_of_edgeInv e

/-- A sum over the edges that end in c is the sum over the pairs (r, c) and the term of the self loop of c. -/
private theorem sum_edges_into (c : Fin 1024) (g : Fin 1049600 → EReal) :
    (∑ e ∈ Finset.univ.filter (fun e : Fin 1049600 => colOf e = c), g e) = (∑ r, g (pair r c)) + g (loop c) := by
  rw [Finset.sum_filter, ← Equiv.sum_comp edgeEquiv, Fintype.sum_sum_type, Fintype.sum_prod_type]
  congr 1
  · refine Finset.sum_congr rfl fun r _ => ?_
    show (∑ c' : Fin 1024, if colOf (pair r c') = c then g (pair r c') else 0) = g (pair r c)
    simp only [colOf_pair]
    rw [Finset.sum_ite_eq' Finset.univ c (fun c' => g (pair r c')), if_pos (Finset.mem_univ c)]
  · show (∑ i : Fin 1024, if colOf (loop i) = c then g (loop i) else 0) = g (loop c)
    simp only [colOf_loop]
    rw [Finset.sum_ite_eq' Finset.univ c (fun i => g (loop i)), if_pos (Finset.mem_univ c)]

/-! ## The degree and the normaliser -/

/-- The degree of node c as a real number. -/
private def dR (A : Fin 1024 → Fin 1024 → EReal) (c : Fin 1024) : ℝ := (∑ r, wR A r c) + 1

private theorem one_le_dR (A : Fin 1024 → Fin 1024 → EReal) (c : Fin 1024) : 1 ≤ dR A c := by
  unfold dR
  have : 0 ≤ ∑ r, wR A r c := Finset.sum_nonneg fun r _ => wR_nonneg A r c
  linarith

private theorem deg_eq (A : Fin 1024 → Fin 1024 → EReal) (c : Fin 1024) : deg A c = ((dR A c : ℝ) : EReal) := by
  unfold deg dR
  rw [EReal.coe_add, coe_sum, EReal.coe_one]
  congr 1
  exact Finset.sum_congr rfl fun r _ => wgt_eq A r c

private theorem degR_eq_deg (A : Fin 1024 → Fin 1024 → EReal) (c : Fin 1024) : degR A c = deg A c := by
  unfold degR deg
  rw [sum_edges_into c (ew A), ew_loop]
  congr 1
  exact Finset.sum_congr rfl fun r _ => ew_pair A r c

/-- The float word of −0.5 denotes the real −1/2. -/
private theorem ofBits_neg_half : Ideal.ofBits .f32 0xBF000000#32 = (((-(1 / 2) : ℝ)) : EReal) := by
  simp [Ideal.ofBits, Ideal.ieee, -EReal.coe_mul]; norm_num

/-- For a real d ≥ 1, d ^ (−1/2) is the reciprocal square root of d. -/
private theorem pow_neg_half_eq_rsqrt (d : ℝ) (hd : 1 ≤ d) :
    Ideal.pow (d : EReal) (Ideal.ofBits .f32 0xBF000000#32) = Ideal.rsqrt (d : EReal) := by
  have h0 : (0 : ℝ) < d := by linarith
  rw [ofBits_neg_half, Ideal.pow_coe_coe, Ideal.rsqrt_coe, if_neg (not_lt.mpr h0.le), if_neg h0.ne']
  congr 1
  show d ^ (-(1 / 2) : ℝ) = (Real.sqrt d)⁻¹
  rw [Real.rpow_neg h0.le, Real.sqrt_eq_rpow]

/-- The normaliser of node c as a real number. -/
private def sR (A : Fin 1024 → Fin 1024 → EReal) (c : Fin 1024) : ℝ := (Real.sqrt (dR A c))⁻¹

private theorem dinv_eq (A : Fin 1024 → Fin 1024 → EReal) (c : Fin 1024) : dinv A c = ((sR A c : ℝ) : EReal) := by
  have h0 : (0 : ℝ) < dR A c := by have := one_le_dR A c; linarith
  unfold dinv sR
  rw [deg_eq, Ideal.rsqrt_coe, if_neg (not_lt.mpr h0.le), if_neg h0.ne']

private theorem dinvR_eq_dinv (A : Fin 1024 → Fin 1024 → EReal) (c : Fin 1024) : dinvR A c = dinv A c := by
  have h0 : (0 : ℝ) < dR A c := by have := one_le_dR A c; linarith
  have hpos : (0 : EReal) < degR A c := by
    rw [degR_eq_deg, deg_eq]; exact_mod_cast h0
  unfold dinvR dinv
  rw [if_pos hpos, degR_eq_deg, deg_eq]
  exact pow_neg_half_eq_rsqrt (dR A c) (one_le_dR A c)

/-! ## The features are real -/

private theorem xw_real (X : Fin 1024 → Fin 128 → EReal) (W1 : Fin 128 → Fin 128 → EReal)
    (B1 : Fin 128 → EReal) (Wg : Fin 128 → Fin 128 → EReal)
    (hX : ∀ n k, ∃ r : ℝ, X n k = (r : EReal)) (hW1 : ∀ j k, ∃ r : ℝ, W1 j k = (r : EReal))
    (hB1 : ∀ j, ∃ r : ℝ, B1 j = (r : EReal)) (hWg : ∀ f j, ∃ r : ℝ, Wg f j = (r : EReal))
    (n : Fin 1024) (f : Fin 128) : ∃ t : ℝ, xw X W1 B1 Wg n f = (t : EReal) := by
  choose x hx using hX
  choose w1 hw1 using hW1
  choose b1 hb1 using hB1
  choose wg hwg using hWg
  refine ⟨∑ j, max ((∑ k, x n k * w1 j k) + b1 j) 0 * wg f j, ?_⟩
  rw [coe_sum]
  unfold xw hid
  refine Finset.sum_congr rfl fun j _ => ?_
  rw [EReal.coe_mul, hwg, EReal.coe_strictMono.monotone.map_max, EReal.coe_add, coe_sum, hb1, EReal.coe_zero]
  congr 3
  exact Finset.sum_congr rfl fun k _ => by rw [hx, hw1, EReal.coe_mul]

/-! ## The bridge -/

/-- On finite features, weights and first bias the edge-list form IS the dense form: the degree over the edge list is
    the column sum of the weights plus the self loop, a real number that is at least 1, where degree ^ (−1/2) is the
    reciprocal square root; the edges ending in c are the pairs (r, c) and the self loop of c; and the normaliser of c,
    a nonnegative real, distributes over the finite sum. -/
theorem R_eq_G (A : Fin 1024 → Fin 1024 → EReal) (X : Fin 1024 → Fin 128 → EReal) (W1 : Fin 128 → Fin 128 → EReal)
    (B1 : Fin 128 → EReal) (Wg : Fin 128 → Fin 128 → EReal) (Bg : Fin 128 → EReal)
    (hX : ∀ n k, ∃ r : ℝ, X n k = (r : EReal)) (hW1 : ∀ j k, ∃ r : ℝ, W1 j k = (r : EReal))
    (hB1 : ∀ j, ∃ r : ℝ, B1 j = (r : EReal)) (hWg : ∀ f j, ∃ r : ℝ, Wg f j = (r : EReal))
    (c : Fin 1024) (f : Fin 128) :
    R A X W1 B1 Wg Bg c f = G A X W1 B1 Wg Bg c f := by
  choose t ht using fun n => xw_real X W1 B1 Wg hX hW1 hB1 hWg n f
  unfold R G
  refine congrArg (· + Bg f) ?_
  rw [sum_edges_into c (fun e => ((dinvR A (rowOf e) * dinvR A (colOf e)) * ew A e) * xw X W1 B1 Wg (rowOf e) f)]
  simp only [rowOf_pair, colOf_pair, rowOf_loop, colOf_loop, ew_pair, ew_loop, dinvR_eq_dinv, dinv_eq, wgt_eq, ht]
  have hL : (∑ r, ((sR A r : EReal) * (sR A c : EReal) * (wR A r c : EReal)) * (t r : EReal))
        + ((sR A c : EReal) * (sR A c : EReal) * 1) * (t c : EReal)
      = (((∑ r, (sR A r * sR A c * wR A r c) * t r) + (sR A c * sR A c * 1) * t c : ℝ) : EReal) := by
    rw [EReal.coe_add, coe_sum]
    simp only [EReal.coe_mul, EReal.coe_one]
  have hR : (sR A c : EReal) * ((∑ r, (wR A r c : EReal) * ((sR A r : EReal) * (t r : EReal)))
        + (sR A c : EReal) * (t c : EReal))
      = ((sR A c * ((∑ r, wR A r c * (sR A r * t r)) + sR A c * t c) : ℝ) : EReal) := by
    rw [EReal.coe_mul, EReal.coe_add, coe_sum]
    simp only [EReal.coe_mul]
  rw [hL, hR]
  congr 1
  rw [mul_add, Finset.mul_sum]
  congr 1
  · exact Finset.sum_congr rfl fun r _ => by ring
  · ring

end Cert.Spec

end
-- ==== Proof.Finite.lean ====
/-
  What the precondition says: every entry of every float argument is a real number.
-/
import proofs.«110136_g88562225643607_cont_sun_c4_858_3_alg».proof.Pre_finite_inputs
import proofs.«110136_g88562225643607_cont_sun_c4_858_3_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Hand

open Idealize.ShloMosaic Idealize.ShloMosaic.ValueIdx Cert.Pre_finite_inputs Cert.Pre_finite_inputs.Gen

/-- The rank-0 shape has one index. -/
private instance : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value max x (−x) lies strictly below +∞ is a real number:
    at ⊥ and at ⊤ the absolute value is ⊤, which is not below itself. -/
private theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One argument's conjunct: if "|entry| < +∞" reduced by ∧ over all axes is 1, every entry is a real number. -/
private theorem all_real {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ix0 = 1#1) (i : s.Idx) : ∃ r : ℝ, v i = (r : EReal) :=
  real_of_abs_lt (v i) (Host.reduce_andi_all _ _ hr hu ix0 e i)

/-- If the precondition's predicate is all ones at the extended reals, every entry of each of the six arguments is a
    real number: the predicate is the conjunction, argument by argument, of "every |entry| is below +∞". -/
theorem finite_of_pre (x : FVec Ideal S1024x128 .f32) (a : FVec Ideal S1x1x1024x1024 .f32) (w1 : FVec Ideal S128x128 .f32)
    (b1 : FVec Ideal S128 .f32) (wg : FVec Ideal S128x128 .f32) (bg : FVec Ideal S128 .f32)
    (h : Cert.Pre_finite_inputs.fn (F := Ideal) x a w1 b1 wg bg = fun _ => 1#1) :
    (∀ i, ∃ r : ℝ, x i = (r : EReal)) ∧ (∀ i, ∃ r : ℝ, a i = (r : EReal)) ∧ (∀ i, ∃ r : ℝ, w1 i = (r : EReal))
      ∧ (∀ i, ∃ r : ℝ, b1 i = (r : EReal)) ∧ (∀ i, ∃ r : ℝ, wg i = (r : EReal)) ∧ (∀ i, ∃ r : ℝ, bg i = (r : EReal)) := by
  -- the predicate at its one index, with its operations in view
  have h0 := congrFun h ix0
  unfold Cert.Pre_finite_inputs.fn Cert.Pre_finite_inputs.fn_part1 at h0
  dsimp only at h0
  -- a conjunction of six bits is 1 exactly when each bit is 1
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x _ _ _ e0, all_real a _ _ _ e1, all_real w1 _ _ _ e2, all_real b1 _ _ _ e3,
    all_real wg _ _ _ e4, all_real bg _ _ _ e5⟩

end Cert.Pre_finite_inputs.Hand

end
-- ==== Proof.KernelValue.lean ====
/-
  The kernel's output array is the dense form of the layer.
-/
import proofs.«110136_g88562225643607_cont_sun_c4_858_3_alg».proof.Proof.Gen.KernelIdeal.Value
import proofs.«110136_g88562225643607_cont_sun_c4_858_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

namespace KV

/-! ## The three products, a column's broadcast and the weight, read at an index -/

/-- The product that contracts the rows of a square matrix against the rows of a column: at (c, z) it is Σ_k a (k, c) · b (k, z). -/
theorem dotA_apply (a : FVec Ideal S1024x1024 .f32) (b : FVec Ideal S1024x1 .f32) (c : Fin 1024) (z : Fin 1) :
    matmul dot_S1024x1024_S1024x1_S1024x1_0_0_1_1_n_n (some .fp32) a b (constant (F := Ideal) S1024x1 .f32 0x00000000#32) (ix2 c z)
      = ∑ k : Fin 1024, a (ix2 k c) * b (ix2 k z) := by
  show FloatOps.matmul _ _ a b _ (ix2 c z) = _
  rw [Ideal.matmul_constant_zero_apply,
    ← Equiv.sum_comp (contrEquiv1 dot_S1024x1024_S1024x1_S1024x1_0_0_1_1_n_n 1024 rfl rfl).symm]
  refine Finset.sum_congr rfl fun k _ => ?_
  have ck := contrEquiv1_symm_val dot_S1024x1024_S1024x1_S1024x1_0_0_1_1_n_n 1024 rfl rfl k
  have hl : dot_S1024x1024_S1024x1_S1024x1_0_0_1_1_n_n.lhsIdx (ix2 c z) ((contrEquiv1 _ 1024 rfl rfl).symm k) = ix2 k c := by
    funext ax; apply Fin.ext
    match ax with
    | ⟨0, _⟩ => simp [DotDims.lhsIdx, dot_S1024x1024_S1024x1_S1024x1_0_0_1_1_n_n] <;> exact ck
    | ⟨1, _⟩ => simp [DotDims.lhsIdx, dot_S1024x1024_S1024x1_S1024x1_0_0_1_1_n_n] <;> rfl
  have hr : dot_S1024x1024_S1024x1_S1024x1_0_0_1_1_n_n.rhsIdx (ix2 c z) ((contrEquiv1 _ 1024 rfl rfl).symm k) = ix2 k z := by
    funext ax; apply Fin.ext
    match ax with
    | ⟨0, _⟩ => simp [DotDims.rhsIdx, dot_S1024x1024_S1024x1_S1024x1_0_0_1_1_n_n] <;> exact ck
    | ⟨1, _⟩ => simp [DotDims.rhsIdx, dot_S1024x1024_S1024x1_S1024x1_0_0_1_1_n_n] <;> rfl
  rw [hl, hr]

/-- The product that contracts the columns of both operands: at (n, j) it is Σ_k a (n, k) · b (j, k). -/
theorem dotB_apply (a : FVec Ideal S1024x128 .f32) (b : FVec Ideal S128x128 .f32) (n : Fin 1024) (j : Fin 128) :
    matmul dot_S1024x128_S128x128_S1024x128_1_1_0_0_n_n (some .fp32) a b (constant (F := Ideal) S1024x128 .f32 0x00000000#32) (ix2 n j)
      = ∑ k : Fin 128, a (ix2 n k) * b (ix2 j k) := by
  show FloatOps.matmul _ _ a b _ (ix2 n j) = _
  rw [Ideal.matmul_constant_zero_apply,
    ← Equiv.sum_comp (contrEquiv1 dot_S1024x128_S128x128_S1024x128_1_1_0_0_n_n 128 rfl rfl).symm]
  refine Finset.sum_congr rfl fun k _ => ?_
  have ck := contrEquiv1_symm_val dot_S1024x128_S128x128_S1024x128_1_1_0_0_n_n 128 rfl rfl k
  have hl : dot_S1024x128_S128x128_S1024x128_1_1_0_0_n_n.lhsIdx (ix2 n j) ((contrEquiv1 _ 128 rfl rfl).symm k) = ix2 n k := by
    funext ax; apply Fin.ext
    match ax with
    | ⟨0, _⟩ => simp [DotDims.lhsIdx, dot_S1024x128_S128x128_S1024x128_1_1_0_0_n_n] <;> rfl
    | ⟨1, _⟩ => simp [DotDims.lhsIdx, dot_S1024x128_S128x128_S1024x128_1_1_0_0_n_n] <;> exact ck
  have hr : dot_S1024x128_S128x128_S1024x128_1_1_0_0_n_n.rhsIdx (ix2 n j) ((contrEquiv1 _ 128 rfl rfl).symm k) = ix2 j k := by
    funext ax; apply Fin.ext
    match ax with
    | ⟨0, _⟩ => simp [DotDims.rhsIdx, dot_S1024x128_S128x128_S1024x128_1_1_0_0_n_n] <;> rfl
    | ⟨1, _⟩ => simp [DotDims.rhsIdx, dot_S1024x128_S128x128_S1024x128_1_1_0_0_n_n] <;> exact ck
  rw [hl, hr]

/-- The product that contracts the rows of a square matrix against the rows of a feature matrix: at (c, f) it is Σ_k a (k, c) · b (k, f). -/
theorem dotC_apply (a : FVec Ideal S1024x1024 .f32) (b : FVec Ideal S1024x128 .f32) (c : Fin 1024) (f : Fin 128) :
    matmul dot_S1024x1024_S1024x128_S1024x128_0_0_1_1_n_n (some .fp32) a b (constant (F := Ideal) S1024x128 .f32 0x00000000#32) (ix2 c f)
      = ∑ k : Fin 1024, a (ix2 k c) * b (ix2 k f) := by
  show FloatOps.matmul _ _ a b _ (ix2 c f) = _
  rw [Ideal.matmul_constant_zero_apply,
    ← Equiv.sum_comp (contrEquiv1 dot_S1024x1024_S1024x128_S1024x128_0_0_1_1_n_n 1024 rfl rfl).symm]
  refine Finset.sum_congr rfl fun k _ => ?_
  have ck := contrEquiv1_symm_val dot_S1024x1024_S1024x128_S1024x128_0_0_1_1_n_n 1024 rfl rfl k
  have hl : dot_S1024x1024_S1024x128_S1024x128_0_0_1_1_n_n.lhsIdx (ix2 c f) ((contrEquiv1 _ 1024 rfl rfl).symm k) = ix2 k c := by
    funext ax; apply Fin.ext
    match ax with
    | ⟨0, _⟩ => simp [DotDims.lhsIdx, dot_S1024x1024_S1024x128_S1024x128_0_0_1_1_n_n] <;> exact ck
    | ⟨1, _⟩ => simp [DotDims.lhsIdx, dot_S1024x1024_S1024x128_S1024x128_0_0_1_1_n_n] <;> rfl
  have hr : dot_S1024x1024_S1024x128_S1024x128_0_0_1_1_n_n.rhsIdx (ix2 c f) ((contrEquiv1 _ 1024 rfl rfl).symm k) = ix2 k f := by
    funext ax; apply Fin.ext
    match ax with
    | ⟨0, _⟩ => simp [DotDims.rhsIdx, dot_S1024x1024_S1024x128_S1024x128_0_0_1_1_n_n] <;> exact ck
    | ⟨1, _⟩ => simp [DotDims.rhsIdx, dot_S1024x1024_S1024x128_S1024x128_0_0_1_1_n_n] <;> rfl
  rw [hl, hr]

/-- A column [a, 1] broadcast to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The weight the body computes from an adjacency entry: the comparison "is not zero", widened and converted, is 1 where
    the entry is not zero and 0 where it is. -/
theorem wgt_elt (x : EReal) :
    (FloatOps.sitofp (F := Ideal) .f32 ((FloatOps.cmpf (F := Ideal) (φ := .f32) .one x (Scalar.ofBits (F := Ideal) .f32 0x00000000#32)).setWidth 32) : EReal)
      = if x ≠ 0 then 1 else 0 := by
  show (((( (Ideal.cmp .one x (Ideal.ofBits .f32 0x00000000#32)).setWidth 32).toInt : ℝ)) : EReal) = _
  rw [Ideal.ofBits_zero_f32]
  unfold Ideal.cmp
  by_cases h : x = 0
  · simp [h]
  · simp [h]

/-- A scalar function applied along a vector reads through at an index. -/
theorem rsqrt_apply {s : Shape} {φ : FTy} (a : FVec Ideal s φ) (i : s.Idx) : rsqrt a i = Ideal.rsqrt (a i) := rfl
/-- The word of one, as the body writes it, is the extended real one. -/
theorem one_word : (FloatOps.ofBits (F := Ideal) .f32 0x3F800000#32 : EReal) = 1 := Ideal.ofBits_one_f32
/-- The word of zero, as the body writes it, is the extended real zero. -/
theorem zero_word : (FloatOps.ofBits (F := Ideal) .f32 0x00000000#32 : EReal) = 0 := Ideal.ofBits_zero_f32

/-! ## The stages of the body's value -/

/-- The weight matrix the body forms from the adjacency block. -/
def wv (v0 : FVec Ideal S1024x1024 .f32) : FVec Ideal S1024x1024 .f32 :=
  sitofp .f32 (extui 32 (cmpf .one (shapeCast S1024x1024 v0 shapeCasts_S1024x1024_S1024x1024)
    (broadcast S1024x1024 (Scalar.ofBits (F := Ideal) .f32 0x00000000#32))) natLt_1_32)

/-- The column of normalisers the body forms: the reciprocal square root of the column sums of the weights plus one. -/
def dinvv (v0 : FVec Ideal S1024x1024 .f32) : FVec Ideal S1024x1 .f32 :=
  rsqrt (addf (matmul dot_S1024x1024_S1024x1_S1024x1_0_0_1_1_n_n (some .fp32) (wv v0)
      (broadcast S1024x1 (Scalar.ofBits (F := Ideal) .f32 0x3F800000#32)) (constant (F := Ideal) S1024x1 .f32 0x00000000#32))
    (broadcast S1024x1 (Scalar.ofBits (F := Ideal) .f32 0x3F800000#32)))

/-- The hidden layer the body forms. -/
def hidv (v11 : FVec Ideal S1024x128 .f32) (v12 : FVec Ideal S128x128 .f32) (v14 : FVec Ideal S1x128 .f32) : FVec Ideal S1024x128 .f32 :=
  maximumf (addf (matmul dot_S1024x128_S128x128_S1024x128_1_1_0_0_n_n (some .fp32) v11 v12 (constant (F := Ideal) S1024x128 .f32 0x00000000#32))
      (broadcastTo S1024x128 (shapeCast S1x128 v14 shapeCasts_S1x128_S1x128) broadcasts_S1x128_S1024x128))
    (broadcast S1024x128 (Scalar.ofBits (F := Ideal) .f32 0x00000000#32))

/-- The second linear map of the hidden layer. -/
def xwv (v11 : FVec Ideal S1024x128 .f32) (v12 : FVec Ideal S128x128 .f32) (v14 : FVec Ideal S1x128 .f32) (v20 : FVec Ideal S128x128 .f32) :
    FVec Ideal S1024x128 .f32 :=
  matmul dot_S1024x128_S128x128_S1024x128_1_1_0_0_n_n (some .fp32) (hidv v11 v12 v14) v20 (constant (F := Ideal) S1024x128 .f32 0x00000000#32)

/-- The normalised features: each row of the second map scaled by its node's normaliser. -/
def msgv (v0 : FVec Ideal S1024x1024 .f32) (v11 : FVec Ideal S1024x128 .f32) (v12 : FVec Ideal S128x128 .f32) (v14 : FVec Ideal S1x128 .f32)
    (v20 : FVec Ideal S128x128 .f32) : FVec Ideal S1024x128 .f32 :=
  mulf (broadcastTo S1024x128 (dinvv v0) broadcasts_S1024x1_S1024x128) (xwv v11 v12 v14 v20)

/-- The body's stored value is the composition of the stages. -/
theorem pay_eq (v0 : FVec Ideal S1024x1024 .f32) (v11 : FVec Ideal S1024x128 .f32) (v12 : FVec Ideal S128x128 .f32)
    (v14 : FVec Ideal S1x128 .f32) (v20 : FVec Ideal S128x128 .f32) (v28 : FVec Ideal S1x128 .f32) :
    k0_pay1 (F := Ideal) v0 v11 v12 v14 v20 v28
      = addf (mulf (broadcastTo S1024x128 (dinvv v0) broadcasts_S1024x1_S1024x128)
            (addf (matmul dot_S1024x1024_S1024x128_S1024x128_0_0_1_1_n_n (some .fp32) (wv v0) (msgv v0 v11 v12 v14 v20)
                (constant (F := Ideal) S1024x128 .f32 0x00000000#32)) (msgv v0 v11 v12 v14 v20)))
          (broadcastTo S1024x128 (shapeCast S1x128 v28 shapeCasts_S1x128_S1x128) broadcasts_S1x128_S1024x128) := rfl

/-- The weight matrix at (r, c) is the weight of the pair. -/
theorem wv_apply (v0 : FVec Ideal S1024x1024 .f32) (r c : Fin 1024) :
    wv v0 (ix2 r c) = Cert.Spec.wgt (Cert.Spec.matOf v0) r c := by
  unfold wv
  rw [shapeCast_self]
  exact wgt_elt (v0 (ix2 r c))

/-- The column sums of the weights, taken by the product with the column of ones. -/
theorem colsum_apply (v0 : FVec Ideal S1024x1024 .f32) (c : Fin 1024) (z : Fin 1) :
    matmul dot_S1024x1024_S1024x1_S1024x1_0_0_1_1_n_n (some .fp32) (wv v0)
        (broadcast S1024x1 (Scalar.ofBits (F := Ideal) .f32 0x3F800000#32)) (constant (F := Ideal) S1024x1 .f32 0x00000000#32) (ix2 c z)
      = ∑ r : Fin 1024, Cert.Spec.wgt (Cert.Spec.matOf v0) r c := by
  rw [dotA_apply]
  refine Finset.sum_congr rfl fun r _ => ?_
  rw [wv_apply, broadcast_apply, one_word, mul_one]

/-- The column of normalisers at c is the normaliser of node c. -/
theorem dinvv_apply (v0 : FVec Ideal S1024x1024 .f32) (c : Fin 1024) (z : Fin 1) :
    dinvv v0 (ix2 c z) = Cert.Spec.dinv (Cert.Spec.matOf v0) c := by
  unfold dinvv
  rw [rsqrt_apply, addf_apply, colsum_apply, broadcast_apply, one_word]
  rfl

/-- The hidden layer at (n, j). -/
theorem hidv_apply (v11 : FVec Ideal S1024x128 .f32) (v12 : FVec Ideal S128x128 .f32) (v14 : FVec Ideal S1x128 .f32)
    (n : Fin 1024) (j : Fin 128) :
    hidv v11 v12 v14 (ix2 n j)
      = Cert.Spec.hid (Cert.Spec.matOf v11) (Cert.Spec.matOf v12) (fun j => v14 (ix2 0 j)) n j := by
  unfold hidv
  rw [maximumf_apply, addf_apply, dotB_apply, shapeCast_self, broadcastTo_1b_ab_apply, broadcast_apply, zero_word]
  rfl

/-- The second map at (n, f). -/
theorem xwv_apply (v11 : FVec Ideal S1024x128 .f32) (v12 : FVec Ideal S128x128 .f32) (v14 : FVec Ideal S1x128 .f32)
    (v20 : FVec Ideal S128x128 .f32) (n : Fin 1024) (f : Fin 128) :
    xwv v11 v12 v14 v20 (ix2 n f)
      = Cert.Spec.xw (Cert.Spec.matOf v11) (Cert.Spec.matOf v12) (fun j => v14 (ix2 0 j)) (Cert.Spec.matOf v20) n f := by
  unfold xwv
  rw [dotB_apply]
  refine Finset.sum_congr rfl fun j _ => ?_
  rw [hidv_apply]
  rfl

/-- The normalised features at (r, f). -/
theorem msgv_apply (v0 : FVec Ideal S1024x1024 .f32) (v11 : FVec Ideal S1024x128 .f32) (v12 : FVec Ideal S128x128 .f32)
    (v14 : FVec Ideal S1x128 .f32) (v20 : FVec Ideal S128x128 .f32) (r : Fin 1024) (f : Fin 128) :
    msgv v0 v11 v12 v14 v20 (ix2 r f)
      = Cert.Spec.dinv (Cert.Spec.matOf v0) r
          * Cert.Spec.xw (Cert.Spec.matOf v11) (Cert.Spec.matOf v12) (fun j => v14 (ix2 0 j)) (Cert.Spec.matOf v20) r f := by
  unfold msgv
  rw [mulf_apply, broadcastTo_a1_ab_apply, dinvv_apply, xwv_apply]

end KV

open KV

/-- The body's one stored value, at node c and feature f, is the dense form of the six loaded blocks: the adjacency
    block as a matrix, the feature and weight blocks as matrices, the two bias rows as vectors. -/
theorem pay_apply (v0 : Vec Ideal S1024x1024 .f32) (v11 : Vec Ideal S1024x128 .f32) (v12 : Vec Ideal S128x128 .f32)
    (v14 : Vec Ideal S1x128 .f32) (v20 : Vec Ideal S128x128 .f32) (v28 : Vec Ideal S1x128 .f32)
    (c : Fin 1024) (f : Fin 128) :
    k0_pay1 (F := Ideal) v0 v11 v12 v14 v20 v28 (ix2 c f)
      = Cert.Spec.G (Cert.Spec.matOf v0) (Cert.Spec.matOf v11) (Cert.Spec.matOf v12) (fun j => v14 (ix2 0 j))
          (Cert.Spec.matOf v20) (fun q => v28 (ix2 0 q)) c f := by
  rw [pay_eq, addf_apply, mulf_apply, addf_apply, broadcastTo_a1_ab_apply, dinvv_apply, dotC_apply, msgv_apply,
    shapeCast_self, broadcastTo_1b_ab_apply]
  unfold Cert.Spec.G
  congr 3
  refine Finset.sum_congr rfl fun r _ => ?_
  rw [wv_apply, msgv_apply]

namespace KV

/-! ## From the blocks to the array -/

section Run

variable (m : (ℓ : Loc nD τ sig) → Buf (Elt Ideal) ℓ) (ρ : Dev nD → PrngReg)

theorem hz : (![0, 0] : Fin 2 → Nat) = fun _ => 0 := funext fun a => by fin_cases a <;> rfl

/-! The grid has one point, and every window's block there is its whole array. -/

theorem iblk0_eq (c : Dev nD) (t : Fin cfg0.N) : (iblk m c 0 t : Vec Ideal S1024x128 .f32) = V m c main_arg0 := by
  obtain rfl : t = t0_0 := fin_N0 t
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V m c main_arg0)

theorem iblk1_eq (c : Dev nD) (t : Fin cfg0.N) : (iblk m c 1 t : Vec Ideal S1024x1024 .f32) = V m c main_v0 := by
  obtain rfl : t = t0_0 := fin_N0 t
  have hz' : (fun a => win0_1.index t0_0 a * main_v0.ty.shape.size a) = fun _ => 0 := funext fun a => by fin_cases a <;> decide
  exact Memref.read_access_unit_zero (Elt Ideal) main_v0 hz' (fun a => by rw [congrFun hz' a]; simp) (V m c main_v0)

theorem iblk2_eq (c : Dev nD) (t : Fin cfg0.N) : (iblk m c 2 t : Vec Ideal S128x128 .f32) = V m c main_arg2 := by
  obtain rfl : t = t0_0 := fin_N0 t
  have hz' : (fun a => win0_2.index t0_0 a * main_arg2.ty.shape.size a) = fun _ => 0 := funext fun a => by fin_cases a <;> decide
  exact Memref.read_access_unit_zero (Elt Ideal) main_arg2 hz' (fun a => by rw [congrFun hz' a]; simp) (V m c main_arg2)

theorem iblk3_eq (c : Dev nD) (t : Fin cfg0.N) : (iblk m c 3 t : Vec Ideal S1x128 .f32) = V m c main_v1 := by
  obtain rfl : t = t0_0 := fin_N0 t
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V m c main_v1)

theorem iblk4_eq (c : Dev nD) (t : Fin cfg0.N) : (iblk m c 4 t : Vec Ideal S128x128 .f32) = V m c main_arg4 := by
  obtain rfl : t = t0_0 := fin_N0 t
  have hz' : (fun a => win0_4.index t0_0 a * main_arg4.ty.shape.size a) = fun _ => 0 := funext fun a => by fin_cases a <;> decide
  exact Memref.read_access_unit_zero (Elt Ideal) main_arg4 hz' (fun a => by rw [congrFun hz' a]; simp) (V m c main_arg4)

theorem iblk5_eq (c : Dev nD) (t : Fin cfg0.N) : (iblk m c 5 t : Vec Ideal S1x128 .f32) = V m c main_v2 := by
  obtain rfl : t = t0_0 := fin_N0 t
  have hz' : (fun a => win0_5.index t0_0 a * main_v2.ty.shape.size a) = fun _ => 0 := funext fun a => by fin_cases a <;> decide
  exact Memref.read_access_unit_zero (Elt Ideal) main_v2 hz' (fun a => by rw [congrFun hz' a]; simp) (V m c main_v2)

/-! Three of the staged arrays are reshapes of argument arrays. -/

theorem V_main_v0 (c : Dev nD) : (V m c main_v0 : S1024x1024.Idx → EReal)
    = shapeCast S1024x1024 (m ((c : Thread nD τ).loc main_arg1)) shapeCasts_S1x1x1024x1024_S1024x1024 := by
  dsimp only [Gen.V, Gen.hostOps0]; after_results; rfl

theorem V_main_v1 (c : Dev nD) : (V m c main_v1 : S1x128.Idx → EReal)
    = shapeCast S1x128 (m ((c : Thread nD τ).loc main_arg3)) shapeCasts_S128_S1x128 := by
  dsimp only [Gen.V, Gen.hostOps0]; after_results; rfl

theorem V_main_v2 (c : Dev nD) : (V m c main_v2 : S1x128.Idx → EReal)
    = shapeCast S1x128 (m ((c : Thread nD τ).loc main_arg5)) shapeCasts_S128_S1x128 := by
  dsimp only [Gen.V, Gen.hostOps0]; after_results; rfl

/-- The staged adjacency matrix is the adjacency array with its two unit axes dropped. -/
theorem adj_eq (c : Dev nD) :
    Cert.Spec.matOf (V m c main_v0 : S1024x1024.Idx → EReal) = Cert.Spec.adjOf (m ((c : Thread nD τ).loc main_arg1)) := by
  funext r q
  show (V m c main_v0 : S1024x1024.Idx → EReal) (ix2 r q) = _
  rw [V_main_v0]
  exact shapeCast_apply _ _ _ (ix4 (0 : Fin 1) (0 : Fin 1) r q) (by
    rw [Shape.rowMajor_val_four, Shape.rowMajor_val_two]
    show ((0 * 1 + 0) * 1024 + r.val) * 1024 + q.val = r.val * 1024 + q.val
    omega)

/-- The staged first bias row is the first bias vector. -/
theorem b1_eq (c : Dev nD) :
    (fun j : Fin 128 => (V m c main_v1 : S1x128.Idx → EReal) (ix2 0 j)) = Cert.Spec.vecOf (m ((c : Thread nD τ).loc main_arg3)) := by
  funext j
  rw [V_main_v1]
  exact shapeCast_a_1a_apply _ _ 0 j

/-- The staged second bias row is the second bias vector. -/
theorem bg_eq (c : Dev nD) :
    (fun j : Fin 128 => (V m c main_v2 : S1x128.Idx → EReal) (ix2 0 j)) = Cert.Spec.vecOf (m ((c : Thread nD τ).loc main_arg5)) := by
  funext j
  rw [V_main_v2]
  exact shapeCast_a_1a_apply _ _ 0 j

/-- The dense form of the argument arrays as launched, on core c. -/
abbrev GA (c : Dev nD) : S1024x128.Idx → EReal :=
  Cert.Spec.GArr (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The body's stored value of the staged arrays is the dense form of the argument arrays. -/
theorem pay_V (c : Dev nD) :
    k0_pay1 (F := Ideal) (V m c main_v0) (V m c main_arg0) (V m c main_arg2) (V m c main_v1) (V m c main_arg4) (V m c main_v2)
      = GA m c := by
  refine Cert.Spec.eq_GArr_of _ _ _ _ _ _ _ fun p f => ?_
  rw [pay_apply, adj_eq, b1_eq, bg_eq, V_main_arg0, V_main_arg2, V_main_arg4]

/-- What the one point writes back is the dense form read through the output's block. -/
theorem flushed_eq (c : Dev nD) (t : Fin cfg0.N) :
    (dats m 0 c).flushed 6 t = ((cfg0.win 6).blk t).view.read (Elt Ideal) (GA m c) := by
  rw [Value.flushed6]
  unfold Gen.out0_6
  rw [View.canon_unit_zero hz]
  simp only [View.ld_unit_zero (S := S1024x1024) hz, View.ld_unit_zero (S := S1024x128) hz,
    View.ld_unit_zero (S := S128x128) hz, View.ld_unit_zero (S := S1x128) hz]
  rw [iblk0_eq, iblk1_eq, iblk2_eq, iblk3_eq, iblk4_eq, iblk5_eq, pay_V]
  obtain rfl : t = t0_0 := fin_N0 t
  have hz' : (fun a => win0_6.index t0_0 a * main_v3.ty.shape.size a) = fun _ => 0 := funext fun a => by fin_cases a <;> decide
  exact (Memref.read_access_unit_zero (Elt Ideal) main_v3 hz' (fun a => by rw [congrFun hz' a]; simp) (GA m c)).symm

/-- So the result array ends holding the dense form: the one point's block covers the array. -/
theorem final (c : Dev nD) : (dats m 0 c).arrAt 6 cfg0.N = GA m c :=
  (dats m 0 c).arrAt_eq_of_cover 6 (GA m c) (fun t _ => flushed_eq m c t) fun i =>
    ⟨t0_0, flush0_6 t0_0, by
      show i ∈ ((View.whole main_v3).slice (win0_6.rect t0_0)).set
      rw [View.set_slice_whole, Rect.mem_set_unit]
      intro a
      have h0 : (i 0 : Nat) < 1024 := (i 0).isLt
      have h1 : (i 1 : Nat) < 128 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 1024 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 128 from by decide +kernel]; omega⟩

end Run

end KV

/-- Every weakly fair execution of the idealized kernel ends with its result array at the dense form of the argument
    arrays as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v3)
        = Cert.Spec.GArr (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  exact (θ_run defs _ _).mono (fun r h c => ⟨(h c).1.trans (final m c), (h c).2⟩) (Value.run_blocks m ρ)

end Cert.KernelIdeal.Hand

end
-- ==== Proof.RefOps.lean ====
/- The reference's @main as the LIST of its 138 host operations, in order: each statement of the printed program one entry, the
   module-local functions (the rectifier, the rounded-down quotient, the signed remainder, their selects) written out
   at their calls over each call's buffers; and, entry by entry, that an operation's buffers are TensorCore buffers.
   A transcription of the printed program with no argument of its own; the four concatenations of two operands are
   written through the two named functions below.-/
import proofs.«110136_g88562225643607_cont_sun_c4_858_3_alg».proof.ReferenceIdeal
import proofs.«110136_g88562225643607_cont_sun_c4_858_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two [1, 1048576] rows stacked into a [2, 1048576] array. -/
def catRows {α : Type} (a b : S1x1048576.Idx → α) : S2x1048576.Idx → α :=
  concatenate S2x1048576 0 [⟨S1x1048576, a⟩, ⟨S1x1048576, b⟩] concatenates_S1x1048576_S1x1048576_S2x1048576_d0

/-- The 1048576 pair entries followed by the 1024 self-loop entries. -/
def catEdges {α : Type} (a : S1048576.Idx → α) (b : S1024.Idx → α) : S1049600.Idx → α :=
  concatenate S1049600 0 [⟨S1048576, a⟩, ⟨S1024, b⟩] concatenates_S1048576_S1024_S1049600_d0

/-- @main's 138 operations, in order. -/
abbrev ops : List (HloOp τ sig (Elt F)) :=
  [ StableHlo.unary main_arg2 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S1024x128 ![0, 1] bcast_S1x128_S1024x128_0_1 : (⟨S1x128, .f32⟩ : BufTy).Contents (Elt F) → (⟨S1024x128, .f32⟩ : BufTy).Contents (Elt F)),
    StableHlo.binary main_v1 main_v3 main_v4 (addf : (⟨S1024x128, .f32⟩ : BufTy).Contents (Elt F) → (⟨S1024x128, .f32⟩ : BufTy).Contents (Elt F) → (⟨S1024x128, .f32⟩ : BufTy).Contents (Elt F)),
    StableHlo.TRef.nullary main_call0.cst (constant S_ .f32 0x00000000#32),
    StableHlo.TRef.unary main_call0.cst main_call0.v0 (broadcastInDim S1024x128 ![] bcast_S_S1024x128),
    StableHlo.TRef.binary (.of main_v4) main_call0.v0 main_call0.v1 maximumf,
    StableHlo.reshape main_arg1 main_v6 rfl shapeCasts_S1x1x1024x1024_S1x1024x1024,
    StableHlo.reshape main_v6 main_v7 rfl shapeCasts_S1x1024x1024_S1024x1024,
    StableHlo.nullary main_v8 (iotaInDim S1048576 32 0),
    StableHlo.nullary main_c (constantI S_ 32 1024#32),
    StableHlo.TRef.unary (.of main_c) main_call1.v0 id,
    StableHlo.TRef.unary main_call1.v0 main_call1.v1 (broadcastInDim S1048576 ![] bcast_S_S1048576),
    StableHlo.TRef.binary (.of main_v8) main_call1.v1 main_call1.v2 Host.divsi,
    StableHlo.TRef.unary (.of main_v8) main_call1.v3 signi,
    StableHlo.TRef.unary main_call1.v0 main_call1.v4 signi,
    StableHlo.TRef.unary main_call1.v4 main_call1.v5 (broadcastInDim S1048576 ![] bcast_S_S1048576),
    StableHlo.TRef.binary main_call1.v3 main_call1.v5 main_call1.v6 (cmpi .ne),
    StableHlo.TRef.unary main_call1.v0 main_call1.v7 (broadcastInDim S1048576 ![] bcast_S_S1048576),
    StableHlo.TRef.binary (.of main_v8) main_call1.v7 main_call1.v8 Host.remsi,
    StableHlo.TRef.nullary main_call1.c (constantI S_ 32 0#32),
    StableHlo.TRef.unary main_call1.c main_call1.v9 (broadcastInDim S1048576 ![] bcast_S_S1048576),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1048576 ![] bcast_S_S1048576),
    StableHlo.TRef.binary main_call1.v2 main_call1.v12 main_call1.v13 subi,
    StableHlo.TRef.ternary main_call1.v11 main_call1.v13 main_call1.v2 main_call1.call0.v0 select,
    StableHlo.nullary main_c_0 (constantI S_ 32 1024#32),
    StableHlo.TRef.unary (.of main_c_0) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1048576 ![] bcast_S_S1048576),
    StableHlo.TRef.binary (.of main_v8) main_call2.v3 main_call2.v4 Host.remsi,
    StableHlo.TRef.nullary main_call2.c_1 (constantI S_ 32 0#32),
    StableHlo.TRef.unary main_call2.c_1 main_call2.v5 (broadcastInDim S1048576 ![] bcast_S_S1048576),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1048576 ![] bcast_S_S1048576),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1048576 ![] bcast_S_S1048576),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1048576 ![] bcast_S_S1048576),
    StableHlo.TRef.binary main_call2.v4 main_call2.v13 main_call2.v14 addi,
    StableHlo.TRef.ternary main_call2.v12 main_call2.v14 main_call2.v4 main_call2.v15 select,
    StableHlo.unary main_v9 main_v11 (broadcastInDim S1x1048576 ![1] bcast_S1048576_S1x1048576_1 : (⟨S1048576, .i32⟩ : BufTy).Contents (Elt F) → (⟨S1x1048576, .i32⟩ : BufTy).Contents (Elt F)),
    StableHlo.unary main_v10 main_v12 (broadcastInDim S1x1048576 ![1] bcast_S1048576_S1x1048576_1 : (⟨S1048576, .i32⟩ : BufTy).Contents (Elt F) → (⟨S1x1048576, .i32⟩ : BufTy).Contents (Elt F)),
    StableHlo.binary main_v11 main_v12 main_v13 (catRows : (⟨S1x1048576, .i32⟩ : BufTy).Contents (Elt F) → (⟨S1x1048576, .i32⟩ : BufTy).Contents (Elt F) → (⟨S2x1048576, .i32⟩ : BufTy).Contents (Elt F)),
    StableHlo.reshape main_v7 main_v14 rfl shapeCasts_S1024x1024_S1048576,
    StableHlo.nullary main_cst (constant S_ .f32 0x00000000#32),
    StableHlo.unary main_cst main_v15 (broadcastInDim S1048576 ![] bcast_S_S1048576 : (⟨S_, .f32⟩ : BufTy).Contents (Elt F) → (⟨S1048576, .f32⟩ : BufTy).Contents (Elt F)),
    StableHlo.binary main_v14 main_v15 main_v16 (cmpf .une : (⟨S1048576, .f32⟩ : BufTy).Contents (Elt F) → (⟨S1048576, .f32⟩ : BufTy).Contents (Elt F) → (⟨S1048576, .i1⟩ : BufTy).Contents (Elt F)),
    StableHlo.unary main_v16 main_v17 (uitofp .f32 : (⟨S1048576, .i1⟩ : BufTy).Contents (Elt F) → (⟨S1048576, .f32⟩ : BufTy).Contents (Elt F)),
    StableHlo.unary main_v13 main_v18 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v18 main_v19 rfl shapeCasts_S1x1048576_S1048576,
    StableHlo.unary main_v13 main_v20 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v20 main_v21 rfl shapeCasts_S1x1048576_S1048576,
    StableHlo.nullary main_v22 (iotaInDim S1024 32 0),
    StableHlo.binary main_v19 main_v22 main_v23 (catEdges : (⟨S1048576, .i32⟩ : BufTy).Contents (Elt F) → (⟨S1024, .i32⟩ : BufTy).Contents (Elt F) → (⟨S1049600, .i32⟩ : BufTy).Contents (Elt F)),
    StableHlo.binary main_v21 main_v22 main_v24 (catEdges : (⟨S1048576, .i32⟩ : BufTy).Contents (Elt F) → (⟨S1024, .i32⟩ : BufTy).Contents (Elt F) → (⟨S1049600, .i32⟩ : BufTy).Contents (Elt F)),
    StableHlo.nullary main_cst_1 (constant S_ .f32 0x3F800000#32),
    StableHlo.unary main_cst_1 main_v25 (broadcastInDim S1024 ![] bcast_S_S1024 : (⟨S_, .f32⟩ : BufTy).Contents (Elt F) → (⟨S1024, .f32⟩ : BufTy).Contents (Elt F)),
    StableHlo.binary main_v17 main_v25 main_v26 (catEdges : (⟨S1048576, .f32⟩ : BufTy).Contents (Elt F) → (⟨S1024, .f32⟩ : BufTy).Contents (Elt F) → (⟨S1049600, .f32⟩ : BufTy).Contents (Elt F)),
    StableHlo.nullary main_cst_2 (constant S_ .f32 0x00000000#32),
    StableHlo.unary main_cst_2 main_v27 (broadcastInDim S1024 ![] bcast_S_S1024 : (⟨S_, .f32⟩ : BufTy).Contents (Elt F) → (⟨S1024, .f32⟩ : BufTy).Contents (Elt F)),
    StableHlo.nullary main_c_3 (constantI S_ 32 0#32),
    StableHlo.unary main_c_3 main_v28 (broadcastInDim S1049600 ![] bcast_S_S1049600 : (⟨S_, .i32⟩ : BufTy).Contents (Elt F) → (⟨S1049600, .i32⟩ : BufTy).Contents (Elt F)),
    StableHlo.binary main_v24 main_v28 main_v29 (cmpi .slt : (⟨S1049600, .i32⟩ : BufTy).Contents (Elt F) → (⟨S1049600, .i32⟩ : BufTy).Contents (Elt F) → (⟨S1049600, .i1⟩ : BufTy).Contents (Elt F)),
    StableHlo.nullary main_c_4 (constantI S_ 32 1024#32),
    StableHlo.unary main_c_4 main_v30 (broadcastInDim S1049600 ![] bcast_S_S1049600 : (⟨S_, .i32⟩ : BufTy).Contents (Elt F) → (⟨S1049600, .i32⟩ : BufTy).Contents (Elt F)),
    StableHlo.binary main_v24 main_v30 main_v31 (addi : (⟨S1049600, .i32⟩ : BufTy).Contents (Elt F) → (⟨S1049600, .i32⟩ : BufTy).Contents (Elt F) → (⟨S1049600, .i32⟩ : BufTy).Contents (Elt F)),
    StableHlo.ternary main_v29 main_v31 main_v24 main_v32 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v32 main_v33 (broadcastInDim S1049600x1 ![0] bcast_S1049600_S1049600x1_0 : (⟨S1049600, .i32⟩ : BufTy).Contents (Elt F) → (⟨S1049600x1, .i32⟩ : BufTy).Contents (Elt F)),
    StableHlo.ternary main_v27 main_v33 main_v26 main_v34 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_5 (constant S_ .f32 0x00000000#32),
    StableHlo.unary main_cst_5 main_v35 (broadcastInDim S1024 ![] bcast_S_S1024 : (⟨S_, .f32⟩ : BufTy).Contents (Elt F) → (⟨S1024, .f32⟩ : BufTy).Contents (Elt F)),
    StableHlo.binary main_v34 main_v35 main_v36 (cmpf .ogt : (⟨S1024, .f32⟩ : BufTy).Contents (Elt F) → (⟨S1024, .f32⟩ : BufTy).Contents (Elt F) → (⟨S1024, .i1⟩ : BufTy).Contents (Elt F)),
    StableHlo.nullary main_cst_6 (constant S_ .f32 0xBF000000#32),
    StableHlo.unary main_cst_6 main_v37 (broadcastInDim S1024 ![] bcast_S_S1024 : (⟨S_, .f32⟩ : BufTy).Contents (Elt F) → (⟨S1024, .f32⟩ : BufTy).Contents (Elt F)),
    StableHlo.binary main_v34 main_v37 main_v38 (Host.powf : (⟨S1024, .f32⟩ : BufTy).Contents (Elt F) → (⟨S1024, .f32⟩ : BufTy).Contents (Elt F) → (⟨S1024, .f32⟩ : BufTy).Contents (Elt F)),
    StableHlo.nullary main_cst_7 (constant S_ .f32 0x00000000#32),
    StableHlo.TRef.unary (.of main_cst_7) main_call3.v0 id,
    StableHlo.TRef.unary main_call3.v0 main_call3.v1 (broadcastInDim S1024 ![] bcast_S_S1024),
    StableHlo.TRef.ternary (.of main_v36) (.of main_v38) main_call3.v1 main_call3.v2 select,
    StableHlo.nullary main_c_8 (constantI S_ 32 0#32),
    StableHlo.unary main_c_8 main_v40 (broadcastInDim S1049600 ![] bcast_S_S1049600 : (⟨S_, .i32⟩ : BufTy).Contents (Elt F) → (⟨S1049600, .i32⟩ : BufTy).Contents (Elt F)),
    StableHlo.binary main_v23 main_v40 main_v41 (cmpi .slt : (⟨S1049600, .i32⟩ : BufTy).Contents (Elt F) → (⟨S1049600, .i32⟩ : BufTy).Contents (Elt F) → (⟨S1049600, .i1⟩ : BufTy).Contents (Elt F)),
    StableHlo.nullary main_c_9 (constantI S_ 32 1024#32),
    StableHlo.unary main_c_9 main_v42 (broadcastInDim S1049600 ![] bcast_S_S1049600 : (⟨S_, .i32⟩ : BufTy).Contents (Elt F) → (⟨S1049600, .i32⟩ : BufTy).Contents (Elt F)),
    StableHlo.binary main_v23 main_v42 main_v43 (addi : (⟨S1049600, .i32⟩ : BufTy).Contents (Elt F) → (⟨S1049600, .i32⟩ : BufTy).Contents (Elt F) → (⟨S1049600, .i32⟩ : BufTy).Contents (Elt F)),
    StableHlo.ternary main_v41 main_v43 main_v23 main_v44 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v44 main_v45 (broadcastInDim S1049600x1 ![0] bcast_S1049600_S1049600x1_0 : (⟨S1049600, .i32⟩ : BufTy).Contents (Elt F) → (⟨S1049600x1, .i32⟩ : BufTy).Contents (Elt F)),
    StableHlo.binary main_v39 main_v45 main_v46 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_10 (constantI S_ 32 0#32),
    StableHlo.unary main_c_10 main_v47 (broadcastInDim S1049600 ![] bcast_S_S1049600 : (⟨S_, .i32⟩ : BufTy).Contents (Elt F) → (⟨S1049600, .i32⟩ : BufTy).Contents (Elt F)),
    StableHlo.binary main_v24 main_v47 main_v48 (cmpi .slt : (⟨S1049600, .i32⟩ : BufTy).Contents (Elt F) → (⟨S1049600, .i32⟩ : BufTy).Contents (Elt F) → (⟨S1049600, .i1⟩ : BufTy).Contents (Elt F)),
    StableHlo.nullary main_c_11 (constantI S_ 32 1024#32),
    StableHlo.unary main_c_11 main_v49 (broadcastInDim S1049600 ![] bcast_S_S1049600 : (⟨S_, .i32⟩ : BufTy).Contents (Elt F) → (⟨S1049600, .i32⟩ : BufTy).Contents (Elt F)),
    StableHlo.binary main_v24 main_v49 main_v50 (addi : (⟨S1049600, .i32⟩ : BufTy).Contents (Elt F) → (⟨S1049600, .i32⟩ : BufTy).Contents (Elt F) → (⟨S1049600, .i32⟩ : BufTy).Contents (Elt F)),
    StableHlo.ternary main_v48 main_v50 main_v24 main_v51 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v51 main_v52 (broadcastInDim S1049600x1 ![0] bcast_S1049600_S1049600x1_0 : (⟨S1049600, .i32⟩ : BufTy).Contents (Elt F) → (⟨S1049600x1, .i32⟩ : BufTy).Contents (Elt F)),
    StableHlo.binary main_v39 main_v52 main_v53 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v46 main_v53 main_v54 (mulf : (⟨S1049600, .f32⟩ : BufTy).Contents (Elt F) → (⟨S1049600, .f32⟩ : BufTy).Contents (Elt F) → (⟨S1049600, .f32⟩ : BufTy).Contents (Elt F)),
    StableHlo.binary main_v54 main_v26 main_v55 (mulf : (⟨S1049600, .f32⟩ : BufTy).Contents (Elt F) → (⟨S1049600, .f32⟩ : BufTy).Contents (Elt F) → (⟨S1049600, .f32⟩ : BufTy).Contents (Elt F)),
    StableHlo.unary main_arg4 main_v56 ((transpose S128x128 [1, 0] · transposes_S128x128_S128x128_1_0) : (⟨S128x128, .f32⟩ : BufTy).Contents (Elt F) → (⟨S128x128, .f32⟩ : BufTy).Contents (Elt F)),
    StableHlo.binary main_v5 main_v56 main_v57 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_v55 main_v58 (broadcastInDim S1049600x1 ![0] bcast_S1049600_S1049600x1_0 : (⟨S1049600, .f32⟩ : BufTy).Contents (Elt F) → (⟨S1049600x1, .f32⟩ : BufTy).Contents (Elt F)),
    StableHlo.nullary main_c_12 (constantI S_ 32 0#32),
    StableHlo.unary main_c_12 main_v59 (broadcastInDim S1049600 ![] bcast_S_S1049600 : (⟨S_, .i32⟩ : BufTy).Contents (Elt F) → (⟨S1049600, .i32⟩ : BufTy).Contents (Elt F)),
    StableHlo.binary main_v23 main_v59 main_v60 (cmpi .slt : (⟨S1049600, .i32⟩ : BufTy).Contents (Elt F) → (⟨S1049600, .i32⟩ : BufTy).Contents (Elt F) → (⟨S1049600, .i1⟩ : BufTy).Contents (Elt F)),
    StableHlo.nullary main_c_13 (constantI S_ 32 1024#32),
    StableHlo.unary main_c_13 main_v61 (broadcastInDim S1049600 ![] bcast_S_S1049600 : (⟨S_, .i32⟩ : BufTy).Contents (Elt F) → (⟨S1049600, .i32⟩ : BufTy).Contents (Elt F)),
    StableHlo.binary main_v23 main_v61 main_v62 (addi : (⟨S1049600, .i32⟩ : BufTy).Contents (Elt F) → (⟨S1049600, .i32⟩ : BufTy).Contents (Elt F) → (⟨S1049600, .i32⟩ : BufTy).Contents (Elt F)),
    StableHlo.ternary main_v60 main_v62 main_v23 main_v63 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v63 main_v64 (broadcastInDim S1049600x1 ![0] bcast_S1049600_S1049600x1_0 : (⟨S1049600, .i32⟩ : BufTy).Contents (Elt F) → (⟨S1049600x1, .i32⟩ : BufTy).Contents (Elt F)),
    StableHlo.binary main_v57 main_v64 main_v65 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v58 main_v66 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v66 main_v65 main_v67 (mulf : (⟨S1049600x128, .f32⟩ : BufTy).Contents (Elt F) → (⟨S1049600x128, .f32⟩ : BufTy).Contents (Elt F) → (⟨S1049600x128, .f32⟩ : BufTy).Contents (Elt F)),
    StableHlo.nullary main_cst_14 (constant S_ .f32 0x00000000#32),
    StableHlo.unary main_cst_14 main_v68 (broadcastInDim S1024x128 ![] bcast_S_S1024x128 : (⟨S_, .f32⟩ : BufTy).Contents (Elt F) → (⟨S1024x128, .f32⟩ : BufTy).Contents (Elt F)),
    StableHlo.nullary main_c_15 (constantI S_ 32 0#32),
    StableHlo.unary main_c_15 main_v69 (broadcastInDim S1049600 ![] bcast_S_S1049600 : (⟨S_, .i32⟩ : BufTy).Contents (Elt F) → (⟨S1049600, .i32⟩ : BufTy).Contents (Elt F)),
    StableHlo.binary main_v24 main_v69 main_v70 (cmpi .slt : (⟨S1049600, .i32⟩ : BufTy).Contents (Elt F) → (⟨S1049600, .i32⟩ : BufTy).Contents (Elt F) → (⟨S1049600, .i1⟩ : BufTy).Contents (Elt F)),
    StableHlo.nullary main_c_16 (constantI S_ 32 1024#32),
    StableHlo.unary main_c_16 main_v71 (broadcastInDim S1049600 ![] bcast_S_S1049600 : (⟨S_, .i32⟩ : BufTy).Contents (Elt F) → (⟨S1049600, .i32⟩ : BufTy).Contents (Elt F)),
    StableHlo.binary main_v24 main_v71 main_v72 (addi : (⟨S1049600, .i32⟩ : BufTy).Contents (Elt F) → (⟨S1049600, .i32⟩ : BufTy).Contents (Elt F) → (⟨S1049600, .i32⟩ : BufTy).Contents (Elt F)),
    StableHlo.ternary main_v70 main_v72 main_v24 main_v73 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v73 main_v74 (broadcastInDim S1049600x1 ![0] bcast_S1049600_S1049600x1_0 : (⟨S1049600, .i32⟩ : BufTy).Contents (Elt F) → (⟨S1049600x1, .i32⟩ : BufTy).Contents (Elt F)),
    StableHlo.ternary main_v68 main_v74 main_v67 main_v75 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S1024x128 ![0, 1] bcast_S1x128_S1024x128_0_1 : (⟨S1x128, .f32⟩ : BufTy).Contents (Elt F) → (⟨S1024x128, .f32⟩ : BufTy).Contents (Elt F)),
    StableHlo.binary main_v75 main_v77 main_v78 (addf : (⟨S1024x128, .f32⟩ : BufTy).Contents (Elt F) → (⟨S1024x128, .f32⟩ : BufTy).Contents (Elt F) → (⟨S1024x128, .f32⟩ : BufTy).Contents (Elt F)) ]

set_option maxRecDepth 8192 in
/-- Every operation's buffers are TensorCore buffers. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., reshape_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub .., reshape_bufs_sub .., nullary_bufs_sub .., unary_bufs_sub .., binary_bufs_sub .., unary_bufs_sub .., unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

end Cert.ReferenceIdeal.Hand

end
-- ==== Proof.RefStages.lean ====
/-
  The reference's computation, stage by stage, as functions of the argument arrays.

  The reference enumerates every ordered node pair as an edge: edge e < 1048576 runs from node e / 1024 to node
  e % 1024 (`QUOT`, `REM`: the integer quotient rounded down and the remainder with the divisor's sign, each spelt with
  the machine's truncating division and a correcting select), and 1024 self loops follow (`ROW`, `COL`: the two node
  columns of the edge list).  An edge weighs 1 where its adjacency entry is not zero, a self loop weighs 1 (`EW`).  The
  degree of a node adds up the weights of the edges that end in it (`DEG`), its normaliser is degree ^ (−1/2) where the
  degree is positive (`DINV`), an edge's coefficient is the product of its two ends' normalisers and its weight
  (`NORM`), the features pass through a rectified affine layer (`HID`) and a linear map (`XW`), an edge's message is
  its coefficient times its source's row of that (`MSG`), and the output adds up the messages of the edges that end in
  each node, plus the bias (`OUT`).  A node column is used as start words after the usual normalisation of a negative
  word (`WRAP`).
-/
import proofs.«110136_g88562225643607_cont_sun_c4_858_3_alg».proof.ReferenceIdeal
import proofs.«110136_g88562225643607_cont_sun_c4_858_3_alg».proof.Proof.Gen.ReferenceIdeal

noncomputable section

namespace Cert.ReferenceIdeal.Stage

open Cert.ReferenceIdeal Cert.ReferenceIdeal.Gen Idealize.ShloMosaic

variable {F : FTy → Type} [FloatOps F]

/-- The pair edges' numbers 0, 1, …, 1048575. -/
def IOTA : IVec S1048576 32 := iotaInDim S1048576 32 0

/-- The divisor 1024 at every pair edge. -/
def DIVISOR : IVec S1048576 32 := broadcastInDim S1048576 ![] bcast_S_S1048576 (constantI S_ 32 1024#32)

/-- Edge number divided by 1024, rounded down: the truncated quotient, less one where the signs of dividend and divisor
    differ and the truncated remainder is not zero. -/
def QUOT : IVec S1048576 32 :=
  select
    (andi
      (cmpi .ne (signi IOTA) (broadcastInDim S1048576 ![] bcast_S_S1048576 (signi (constantI S_ 32 1024#32))))
      (cmpi .ne (Host.remsi IOTA DIVISOR) (broadcastInDim S1048576 ![] bcast_S_S1048576 (constantI S_ 32 0#32))))
    (subi (Host.divsi IOTA DIVISOR) (broadcastInDim S1048576 ![] bcast_S_S1048576 (constantI S_ 32 1#32)))
    (Host.divsi IOTA DIVISOR)

/-- The divisor of the remainder: 1024, replaced by 1 if it were 0. -/
def REMDIV : IVec S_ 32 :=
  select (cmpi .eq (constantI S_ 32 1024#32) (constantI S_ 32 0#32)) (constantI S_ 32 1#32) (constantI S_ 32 1024#32)

/-- The truncated remainder of the edge number by that divisor. -/
def REM0 : IVec S1048576 32 := Host.remsi IOTA (broadcastInDim S1048576 ![] bcast_S_S1048576 REMDIV)

/-- Edge number modulo 1024 with the divisor's sign: the truncated remainder, plus the divisor where the remainder is
    not zero and its sign differs from the divisor's. -/
def REM : IVec S1048576 32 :=
  select
    (andi
      (cmpi .ne (cmpi .slt REM0 (broadcastInDim S1048576 ![] bcast_S_S1048576 (constantI S_ 32 0#32)))
        (broadcastInDim S1048576 ![] bcast_S_S1048576 (cmpi .slt REMDIV (constantI S_ 32 0#32))))
      (cmpi .ne REM0 (broadcastInDim S1048576 ![] bcast_S_S1048576 (constantI S_ 32 0#32))))
    (addi REM0 (broadcastInDim S1048576 ![] bcast_S_S1048576 REMDIV))
    REM0

/-- The two node columns of the pair edges stacked as the rows of a [2, 1048576] array. -/
def STACK : IVec S2x1048576 32 :=
  concatenate S2x1048576 0
    [⟨S1x1048576, broadcastInDim S1x1048576 ![1] bcast_S1048576_S1x1048576_1 QUOT⟩,
     ⟨S1x1048576, broadcastInDim S1x1048576 ![1] bcast_S1048576_S1x1048576_1 REM⟩]
    concatenates_S1x1048576_S1x1048576_S2x1048576_d0

/-- The self loops' node numbers 0, …, 1023. -/
def LOOP : IVec S1024 32 := iotaInDim S1024 32 0

/-- The source column of the edge list: row 0 of the stack, then the self loops. -/
def ROW : IVec S1049600 32 :=
  concatenate S1049600 0
    [⟨S1048576, shapeCast S1048576 (extractStridedSlice S1x1048576 ![0, 0] STACK slices_S2x1048576_S1x1048576_0_0)
        shapeCasts_S1x1048576_S1048576⟩,
     ⟨S1024, LOOP⟩]
    concatenates_S1048576_S1024_S1049600_d0

/-- The target column of the edge list: row 1 of the stack, then the self loops. -/
def COL : IVec S1049600 32 :=
  concatenate S1049600 0
    [⟨S1048576, shapeCast S1048576 (extractStridedSlice S1x1048576 ![1, 0] STACK slices_S2x1048576_S1x1048576_1_0)
        shapeCasts_S1x1048576_S1048576⟩,
     ⟨S1024, LOOP⟩]
    concatenates_S1048576_S1024_S1049600_d0

/-- A node column as a column [1049600, 1] of start words: a negative word counts from the end. -/
def WRAP (v : IVec S1049600 32) : IVec S1049600x1 32 :=
  broadcastInDim S1049600x1 ![0] bcast_S1049600_S1049600x1_0
    (select (cmpi .slt v (broadcastInDim S1049600 ![] bcast_S_S1049600 (constantI S_ 32 0#32)))
      (addi v (broadcastInDim S1049600 ![] bcast_S_S1049600 (constantI S_ 32 1024#32))) v)

/-- The zero vector [1024]. -/
def ZERO1 : FVec F S1024 .f32 := broadcastInDim S1024 ![] bcast_S_S1024 (constant S_ .f32 0x00000000#32)

/-- The edge weights: 1 where the flattened adjacency entry is not zero and 0 where it is, then 1 for each self loop. -/
def EW (a : FVec F S1x1x1024x1024 .f32) : FVec F S1049600 .f32 :=
  concatenate S1049600 0
    [⟨S1048576, uitofp .f32
        (cmpf .une
          (shapeCast S1048576
            (shapeCast S1024x1024 (shapeCast S1x1024x1024 a shapeCasts_S1x1x1024x1024_S1x1024x1024)
              shapeCasts_S1x1024x1024_S1024x1024)
            shapeCasts_S1024x1024_S1048576)
          (broadcastInDim S1048576 ![] bcast_S_S1048576 (constant S_ .f32 0x00000000#32)))⟩,
     ⟨S1024, broadcastInDim S1024 ![] bcast_S_S1024 (constant S_ .f32 0x3F800000#32)⟩]
    concatenates_S1048576_S1024_S1049600_d0

/-- The degrees: the edge weights added up at the edges' targets, from zero. -/
def DEG (a : FVec F S1x1x1024x1024 .f32) : FVec F S1024 .f32 :=
  Host.scatterAdd scatter_S1024_S1049600x1_S1049600_n_0_0_1 (ZERO1 (F := F)) (WRAP COL) (EW a)

/-- The normalisers: degree ^ (−1/2) where the degree is above zero, zero elsewhere. -/
def DINV (a : FVec F S1x1x1024x1024 .f32) : FVec F S1024 .f32 :=
  select (cmpf .ogt (DEG a) (ZERO1 (F := F)))
    (Host.powf (DEG a) (broadcastInDim S1024 ![] bcast_S_S1024 (constant S_ .f32 0xBF000000#32)))
    (broadcastInDim S1024 ![] bcast_S_S1024 (constant S_ .f32 0x00000000#32))

/-- The edge coefficients: source normaliser times target normaliser times weight. -/
def NORM (a : FVec F S1x1x1024x1024 .f32) : FVec F S1049600 .f32 :=
  mulf
    (mulf (Host.gather gather_S1024_S1049600x1_S1049600_n_0_n_n_0_1_1 (DINV a) (WRAP ROW))
      (Host.gather gather_S1024_S1049600x1_S1049600_n_0_n_n_0_1_1 (DINV a) (WRAP COL)))
    (EW a)

/-- The hidden layer: the features times the transposed first weights, plus the first bias along the rows, rectified. -/
def HID (x : FVec F S1024x128 .f32) (w1 : FVec F S128x128 .f32) (b1 : FVec F S128 .f32) : FVec F S1024x128 .f32 :=
  maximumf
    (addf
      (Host.dotGeneral dot_S1024x128_S128x128_S1024x128_1_0_0_1_n_n none x
        (transpose S128x128 [1, 0] w1 transposes_S128x128_S128x128_1_0))
      (broadcastInDim S1024x128 ![0, 1] bcast_S1x128_S1024x128_0_1 (broadcastInDim S1x128 ![1] bcast_S128_S1x128_1 b1)))
    (broadcastInDim S1024x128 ![] bcast_S_S1024x128 (constant S_ .f32 0x00000000#32))

/-- The hidden layer times the transposed second weights. -/
def XW (x : FVec F S1024x128 .f32) (w1 : FVec F S128x128 .f32) (b1 : FVec F S128 .f32) (wg : FVec F S128x128 .f32) :
    FVec F S1024x128 .f32 :=
  Host.dotGeneral dot_S1024x128_S128x128_S1024x128_1_0_0_1_n_n none (HID x w1 b1)
    (transpose S128x128 [1, 0] wg transposes_S128x128_S128x128_1_0)

/-- The messages: an edge's coefficient along the features, times its source's row of `XW`. -/
def MSG (x : FVec F S1024x128 .f32) (a : FVec F S1x1x1024x1024 .f32) (w1 : FVec F S128x128 .f32) (b1 : FVec F S128 .f32)
    (wg : FVec F S128x128 .f32) : FVec F S1049600x128 .f32 :=
  mulf
    (broadcastInDim S1049600x128 ![0, 1] bcast_S1049600x1_S1049600x128_0_1
      (broadcastInDim S1049600x1 ![0] bcast_S1049600_S1049600x1_0 (NORM a)))
    (Host.gather gather_S1024x128_S1049600x1_S1049600x128_1_0_n_n_0_1_1128 (XW x w1 b1 wg) (WRAP ROW))

/-- The reference's result: the messages added up at the edges' targets, from zero, plus the second bias along the rows. -/
def OUT (x : FVec F S1024x128 .f32) (a : FVec F S1x1x1024x1024 .f32) (w1 : FVec F S128x128 .f32) (b1 : FVec F S128 .f32)
    (wg : FVec F S128x128 .f32) (bg : FVec F S128 .f32) : FVec F S1024x128 .f32 :=
  addf
    (Host.scatterAdd scatter_S1024x128_S1049600x1_S1049600x128_1_0_0_1
      (broadcastInDim S1024x128 ![] bcast_S_S1024x128 (constant S_ .f32 0x00000000#32)) (WRAP COL) (MSG x a w1 b1 wg))
    (broadcastInDim S1024x128 ![0, 1] bcast_S1x128_S1024x128_0_1 (broadcastInDim S1x128 ![1] bcast_S128_S1x128_1 bg))

end Cert.ReferenceIdeal.Stage

end
-- ==== Proof.RefRun.lean ====
/-
  The reference's run: every weakly fair execution of its @main terminates with the result buffer at the last stage
  of the reference's computation (`Stage.OUT` of the argument arrays as launched) and the arguments unchanged.

  @main is a straight line of host operations (the module-local functions written out at their calls), so its run is the
  fold of the operations' results over the launch contents; reading that fold at the result buffer, operation by
  operation, composes the stages' definitions.
-/
import proofs.«110136_g88562225643607_cont_sun_c4_858_3_alg».proof.Proof.RefOps
import proofs.«110136_g88562225643607_cont_sun_c4_858_3_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- @main is that straight line: the two windows of its statements and the functions' bodies unfolded at their calls,
    both sides are one chain of host steps once sequencing is reassociated. -/
theorem main_eq (c : Dev nD) : main (F := F) c = seq ops := by
  simp only [main, main_part0, main_part1, fn_relu.body, fn_floor_divide.body, fn_where.body, fn_remainder.body,
    fn_where_0.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- The launch contents of core c's buffers, read at a buffer, are the memory there. -/
theorem launch_at (m : (ℓ : Loc nD τ sig) → Buf (Elt F) ℓ) (c : Dev nD) (b : Ref sig .tc) :
    launchContents m c (b : DevRef τ sig) = m ((c.tc : Thread nD τ).loc b) := rfl

attribute [local irreducible] Host.gather Host.scatterAdd in
set_option maxRecDepth 65536 in
set_option maxHeartbeats 64000000 in
/-- The fold of the operations at the result buffer is the last stage of the argument buffers' contents: each
    operation's result read where it is written, the other buffers passed through, compose the stages' terms. -/
theorem out_eq (V : Valuation τ sig (Elt F)) :
    after ops V (main_v78 : DevRef τ sig)
      = Stage.OUT (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 65536 in
set_option maxHeartbeats 64000000 in
/-- No operation writes argument 0: the fold leaves it as launched. -/
theorem arg0_eq (V : Valuation τ sig (Elt F)) :
    after ops V (main_arg0 : DevRef τ sig) = V (main_arg0 : DevRef τ sig) := by
  after_results_simp

set_option maxRecDepth 65536 in
set_option maxHeartbeats 64000000 in
/-- No operation writes argument 1: the fold leaves it as launched. -/
theorem arg1_eq (V : Valuation τ sig (Elt F)) :
    after ops V (main_arg1 : DevRef τ sig) = V (main_arg1 : DevRef τ sig) := by
  after_results_simp

set_option maxRecDepth 65536 in
set_option maxHeartbeats 64000000 in
/-- No operation writes argument 2: the fold leaves it as launched. -/
theorem arg2_eq (V : Valuation τ sig (Elt F)) :
    after ops V (main_arg2 : DevRef τ sig) = V (main_arg2 : DevRef τ sig) := by
  after_results_simp

set_option maxRecDepth 65536 in
set_option maxHeartbeats 64000000 in
/-- No operation writes argument 3: the fold leaves it as launched. -/
theorem arg3_eq (V : Valuation τ sig (Elt F)) :
    after ops V (main_arg3 : DevRef τ sig) = V (main_arg3 : DevRef τ sig) := by
  after_results_simp

set_option maxRecDepth 65536 in
set_option maxHeartbeats 64000000 in
/-- No operation writes argument 4: the fold leaves it as launched. -/
theorem arg4_eq (V : Valuation τ sig (Elt F)) :
    after ops V (main_arg4 : DevRef τ sig) = V (main_arg4 : DevRef τ sig) := by
  after_results_simp

set_option maxRecDepth 65536 in
set_option maxHeartbeats 64000000 in
/-- No operation writes argument 5: the fold leaves it as launched. -/
theorem arg5_eq (V : Valuation τ sig (Elt F)) :
    after ops V (main_arg5 : DevRef τ sig) = V (main_arg5 : DevRef τ sig) := by
  after_results_simp

/-- On every device, from any memory with zero counters: every weakly fair execution of the reference's @main terminates
    with the result buffer at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
        = Stage.OUT (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v78).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_seq scopedRefs_eq scopedSems_eq defs main (fun _ => ops) main_eq (fun _ => ops_sub) m ρ)

end Cert.ReferenceIdeal.Hand

end
-- ==== Proof.IntIdx.lean ====
/-
  The edge number's quotient and remainder by 1024, as the reference spells them on 32-bit words, read at an edge.
-/
import proofs.«110136_g88562225643607_cont_sun_c4_858_3_alg».proof.Proof.RefStages
import Idealize.ShloMosaic.Lib.ValueIdx
import Idealize.ShloMosaic.Lib.WordArith
import Idealize.ShloMosaic.Lib.Affine
import Idealize.ShloMosaic.Lib.IdealHost

noncomputable section

namespace Cert.ReferenceIdeal.Hand

open Cert.ReferenceIdeal Cert.ReferenceIdeal.Gen Idealize.ShloMosaic Idealize.ShloMosaic.ValueIdx

/-- A natural number below 2³¹, as a 32-bit word, has a clear sign bit. -/
private theorem msb_small (n : Nat) (hn : n < 2 ^ 31) : (BitVec.ofNat 32 n).msb = false := by
  rw [BitVec.msb_eq_decide, WordArith.toNat_ofNat_of_lt n (by omega)]
  exact decide_eq_false (by omega)

/-- The signed quotient of a small nonnegative word by 1024 is the quotient of naturals: the divisor is neither 0 nor −1,
    and on two words with clear sign bits the signed division is the unsigned one. -/
private theorem divsi_small (u : ArithUnit) (n : Nat) (hn : n < 1048576) :
    IntOp.divsi u (BitVec.ofNat 32 n) 1024#32 = BitVec.ofNat 32 (n / 1024) := by
  unfold IntOp.divsi
  rw [if_neg (by simp [IntOp.SDivCorner]), BitVec.sdiv_eq, msb_small n (by omega),
    show (1024#32 : BitVec 32).msb = false by decide]
  apply BitVec.eq_of_toNat_eq
  show (BitVec.ofNat 32 n / 1024#32).toNat = _
  rw [BitVec.toNat_udiv, WordArith.toNat_ofNat_of_lt n (by omega), WordArith.toNat_ofNat_of_lt (n / 1024) (by omega)]
  rfl

/-- The signed remainder of a small nonnegative word by 1024 is the remainder of naturals. -/
private theorem remsi_small (u : ArithUnit) (n : Nat) (hn : n < 1048576) :
    IntOp.remsi u (BitVec.ofNat 32 n) 1024#32 = BitVec.ofNat 32 (n % 1024) := by
  unfold IntOp.remsi
  rw [if_neg (by simp [IntOp.SDivCorner]), BitVec.srem_eq, msb_small n (by omega),
    show (1024#32 : BitVec 32).msb = false by decide]
  apply BitVec.eq_of_toNat_eq
  show (BitVec.ofNat 32 n % 1024#32).toNat = _
  rw [BitVec.toNat_umod, WordArith.toNat_ofNat_of_lt n (by omega), WordArith.toNat_ofNat_of_lt (n % 1024) (by omega)]
  rfl

/-- A conjunction whose first bit is 0 is 0. -/
private theorem andi_zero_left (c : BitVec 1) : IntOp.andi 0#1 c = 0#1 := by revert c; decide

/-- The rounded-down quotient by 1024 of a small nonnegative word, spelt with the truncated quotient and a correction
    where the signs of dividend and divisor differ and the remainder is not zero: the correction never applies, since a
    nonzero dividend is positive like the divisor, and a zero dividend has remainder zero. -/
private theorem floordiv_small (u : ArithUnit) (n : Nat) (hn : n < 1048576) :
    Scalar.select
      (IntOp.andi
        (IntOp.cmpi .ne
          (if BitVec.ofNat 32 n = 0 then (0 : BitVec 32) else if (BitVec.ofNat 32 n).msb then -1 else 1)
          (if (1024#32 : BitVec 32) = 0 then (0 : BitVec 32) else if (1024#32 : BitVec 32).msb then -1 else 1))
        (IntOp.cmpi .ne (IntOp.remsi u (BitVec.ofNat 32 n) 1024#32) 0#32))
      (IntOp.subi (IntOp.divsi u (BitVec.ofNat 32 n) 1024#32) 1#32)
      (IntOp.divsi u (BitVec.ofNat 32 n) 1024#32) = BitVec.ofNat 32 (n / 1024) := by
  rw [divsi_small u n hn, remsi_small u n hn]
  by_cases h0 : n = 0
  · subst h0; decide
  · have hw : ¬ BitVec.ofNat 32 n = 0 := fun h => h0 (by
      have := congrArg BitVec.toNat h
      rwa [WordArith.toNat_ofNat_of_lt n (by omega)] at this)
    rw [if_neg hw, msb_small n (by omega)]
    have hs : IntOp.cmpi .ne (if false = true then (-1 : BitVec 32) else 1)
        (if (1024#32 : BitVec 32) = 0 then (0 : BitVec 32) else if (1024#32 : BitVec 32).msb then -1 else 1) = 0#1 := by
      decide
    rw [hs, andi_zero_left, select_zero]

/-- The remainder with the divisor's sign, spelt with the truncated remainder r and a correction where r is not zero and
    its sign differs from the divisor's: for a nonnegative r below 1024 and the divisor 1024 no correction applies. -/
private theorem floormod_small (m : Nat) (hm : m < 1024) :
    Scalar.select
      (IntOp.andi
        (IntOp.cmpi .ne (IntOp.cmpi .slt (BitVec.ofNat 32 m) 0#32) (IntOp.cmpi .slt 1024#32 0#32))
        (IntOp.cmpi .ne (BitVec.ofNat 32 m) 0#32))
      (IntOp.addi (BitVec.ofNat 32 m) 1024#32)
      (BitVec.ofNat 32 m) = BitVec.ofNat 32 m := by
  have h1 : IntOp.cmpi .slt (BitVec.ofNat 32 m) 0#32 = 0#1 := eq_zero_of_ne_one fun h => by
    rw [IntOp.cmpi_slt, WordArith.toInt_ofNat_small m (by omega)] at h
    have : (0#32 : BitVec 32).toInt = 0 := by decide
    omega
  have h2 : IntOp.cmpi .ne (0#1 : BitVec 1) (IntOp.cmpi .slt 1024#32 0#32) = 0#1 := by decide
  rw [h1, h2, andi_zero_left, select_zero]

/-- At pair edge e (below 2^20, so a small nonnegative word) the rounded-down quotient by 1024 is the word of e / 1024:
    dividend and divisor are both positive or the dividend is zero, so no correction applies, and the signed division of
    two nonnegative words is the division of naturals. -/
theorem QUOT_apply (e : Fin 1048576) : Stage.QUOT (ix1 e) = BitVec.ofNat 32 (e.val / 1024) := by
  exact floordiv_small .host e.val e.isLt

/-- At pair edge e the remainder by 1024 with the divisor's sign is the word of e % 1024: the divisor is 1024, the
    truncated remainder of a nonnegative word is nonnegative, so no correction applies. -/
theorem REM_apply (e : Fin 1048576) : Stage.REM (ix1 e) = BitVec.ofNat 32 (e.val % 1024) := by
  -- the remainder's divisor is 1024 at every index
  have hD : ∀ k : S_.Idx, Stage.REMDIV k = 1024#32 := fun k => by
    show Scalar.select (IntOp.cmpi .eq 1024#32 0#32) (1#32) (1024#32) = 1024#32
    decide
  -- the truncated remainder at edge e
  have h0 : Stage.REM0 (ix1 e) = BitVec.ofNat 32 (e.val % 1024) := by
    show IntOp.remsi .host (BitVec.ofNat 32 e.val) (Stage.REMDIV ix0) = _
    rw [hD]
    exact remsi_small .host e.val e.isLt
  show Scalar.select
      (IntOp.andi
        (IntOp.cmpi .ne (IntOp.cmpi .slt (Stage.REM0 (ix1 e)) 0#32) (IntOp.cmpi .slt (Stage.REMDIV ix0) 0#32))
        (IntOp.cmpi .ne (Stage.REM0 (ix1 e)) 0#32))
      (IntOp.addi (Stage.REM0 (ix1 e)) (Stage.REMDIV ix0))
      (Stage.REM0 (ix1 e)) = _
  simp only [h0, hD]
  exact floormod_small (e.val % 1024) (Nat.mod_lt _ (by decide))

end Cert.ReferenceIdeal.Hand

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.EdgeCols.lean ====
/-
  The two node columns of the edge list read at an edge, and the start words made of them.
-/
import proofs.«110136_g88562225643607_cont_sun_c4_858_3_alg».proof.Proof.RefStages
import proofs.«110136_g88562225643607_cont_sun_c4_858_3_alg».proof.Proof.IntIdx
import proofs.«110136_g88562225643607_cont_sun_c4_858_3_alg».proof.Proof.Spec
import proofs.«110136_g88562225643607_cont_sun_c4_858_3_alg».proof.Proof.LibRowGatherScatter
import Idealize.ShloMosaic.Lib.ValueIdx
import Idealize.ShloMosaic.Lib.ValueLayout
import Idealize.ShloMosaic.Lib.WordArith
import Idealize.ShloMosaic.Lib.Pipeline.Value
import Idealize.ShloMosaic.Lib.IdealHost

noncomputable section

namespace Cert.ReferenceIdeal.Hand

open Cert.ReferenceIdeal Cert.ReferenceIdeal.Gen Idealize.ShloMosaic Idealize.ShloMosaic.ValueIdx

/-- Row 0 of the stack at pair edge e is the word of e / 1024: the first piece of the concatenation, the quotient
    column laid out as a row. -/
private theorem STACK_row0 (e : Fin 1048576) :
    Stage.STACK (ix2 (0 : Fin 2) e) = BitVec.ofNat 32 (e.val / 1024) := by
  unfold Stage.STACK
  refine (concatenate_pair_apply_left (s₁ := S1x1048576) (s₂ := S1x1048576) (0 : Fin 2) _ _ _ (ix2 (0 : Fin 2) e) rfl (ix2 (0 : Fin 1) e) ?_).trans ?_
  · intro b
    match b with
    | ⟨0, _⟩ => rfl
    | ⟨1, _⟩ => rfl
  · exact (bcastRow_apply _ _ 0 e).trans (QUOT_apply e)

/-- Row 1 of the stack at pair edge e is the word of e % 1024: the second piece of the concatenation, the remainder
    column laid out as a row. -/
private theorem STACK_row1 (e : Fin 1048576) :
    Stage.STACK (ix2 (1 : Fin 2) e) = BitVec.ofNat 32 (e.val % 1024) := by
  unfold Stage.STACK
  refine (concatenate_pair_apply_right (s₁ := S1x1048576) (s₂ := S1x1048576) (0 : Fin 2) _ _ _ (ix2 (1 : Fin 2) e) rfl rfl (ix2 (0 : Fin 1) e) ?_ ?_).trans ?_
  · intro b hb
    match b with
    | ⟨0, _⟩ => exact absurd rfl hb
    | ⟨1, _⟩ => rfl
  · rfl
  · exact (bcastRow_apply _ _ 0 e).trans (REM_apply e)

/-- Row 0 of the stack, cut out and flattened, at pair edge e. -/
private theorem ROWL_apply (e : Fin 1048576) :
    shapeCast S1048576 (extractStridedSlice S1x1048576 ![0, 0] Stage.STACK slices_S2x1048576_S1x1048576_0_0)
        shapeCasts_S1x1048576_S1048576 (ix1 e) = BitVec.ofNat 32 (e.val / 1024) := by
  refine (shapeCast_1a_a_apply _ _ e).trans ?_
  refine (extractStridedSlice_apply _ _ _ _ (ix2 (0 : Fin 2) e) ?_).trans (STACK_row0 e)
  intro a
  match a with
  | ⟨0, _⟩ => rfl
  | ⟨1, _⟩ => exact (Nat.zero_add _).symm

/-- Row 1 of the stack, cut out and flattened, at pair edge e. -/
private theorem COLL_apply (e : Fin 1048576) :
    shapeCast S1048576 (extractStridedSlice S1x1048576 ![1, 0] Stage.STACK slices_S2x1048576_S1x1048576_1_0)
        shapeCasts_S1x1048576_S1048576 (ix1 e) = BitVec.ofNat 32 (e.val % 1024) := by
  refine (shapeCast_1a_a_apply _ _ e).trans ?_
  refine (extractStridedSlice_apply _ _ _ _ (ix2 (1 : Fin 2) e) ?_).trans (STACK_row1 e)
  intro a
  match a with
  | ⟨0, _⟩ => rfl
  | ⟨1, _⟩ => exact (Nat.zero_add _).symm

/-- The source column at edge e is the word of the edge's source node: the quotient for a pair edge (row 0 of the
    stack, flattened), the loop's own number for a self loop (the second piece of the concatenation). -/
theorem ROW_apply (e : Fin 1049600) : Stage.ROW (ix1 e) = BitVec.ofNat 32 (Cert.Spec.rowOf e).val := by
  unfold Stage.ROW
  by_cases h : e.val < 1048576
  · refine (concatenate_pair_apply_left (s₁ := S1048576) (s₂ := S1024) (0 : Fin 1) _ _ _ (ix1 e) rfl (ix1 (⟨e.val, h⟩ : Fin 1048576)) ?_).trans ?_
    · intro b
      match b with
      | ⟨0, _⟩ => rfl
    · rw [ROWL_apply]
      unfold Cert.Spec.rowOf
      rw [dif_pos h]
  · refine (concatenate_pair_apply_right (s₁ := S1048576) (s₂ := S1024) (0 : Fin 1) _ _ _ (ix1 e) rfl rfl
      (ix1 (⟨e.val - 1048576, by omega⟩ : Fin 1024)) ?_ ?_).trans ?_
    · intro b hb
      match b with
      | ⟨0, _⟩ => exact absurd rfl hb
    · show e.val - 1048576 + 1048576 = e.val
      omega
    · unfold Stage.LOOP
      rw [iotaInDim_apply]
      unfold Cert.Spec.rowOf
      rw [dif_neg h]

/-- The target column at edge e is the word of the edge's target node. -/
theorem COL_apply (e : Fin 1049600) : Stage.COL (ix1 e) = BitVec.ofNat 32 (Cert.Spec.colOf e).val := by
  unfold Stage.COL
  by_cases h : e.val < 1048576
  · refine (concatenate_pair_apply_left (s₁ := S1048576) (s₂ := S1024) (0 : Fin 1) _ _ _ (ix1 e) rfl (ix1 (⟨e.val, h⟩ : Fin 1048576)) ?_).trans ?_
    · intro b
      match b with
      | ⟨0, _⟩ => rfl
    · rw [COLL_apply]
      unfold Cert.Spec.colOf
      rw [dif_pos h]
  · refine (concatenate_pair_apply_right (s₁ := S1048576) (s₂ := S1024) (0 : Fin 1) _ _ _ (ix1 e) rfl rfl
      (ix1 (⟨e.val - 1048576, by omega⟩ : Fin 1024)) ?_ ?_).trans ?_
    · intro b hb
      match b with
      | ⟨0, _⟩ => exact absurd rfl hb
    · show e.val - 1048576 + 1048576 = e.val
      omega
    · unfold Stage.LOOP
      rw [iotaInDim_apply]
      unfold Cert.Spec.colOf
      rw [dif_neg h]

/-- Read signed, the word of a node number below 1024 is that number. -/
theorem toInt_node (n : Fin 1024) : (BitVec.ofNat 32 n.val).toInt = (n.val : ℤ) :=
  WordArith.toInt_ofNat_small n.val (by have := n.isLt; omega)

/-- A column whose entry at edge e is the word of a node, made into start words, still reads that word at (e, 0):
    the word is not negative, so the normalising select keeps it. -/
private theorem WRAP_of_node (v : IVec S1049600 32) (e : Fin 1049600) (n : Fin 1024)
    (hv : v (ix1 e) = BitVec.ofNat 32 n.val) : Stage.WRAP v (ix2 e 0) = BitVec.ofNat 32 n.val := by
  unfold Stage.WRAP
  refine (bcastCol_apply _ _ e 0).trans ?_
  rw [select_apply]
  show Scalar.select (IntOp.cmpi .slt (v (ix1 e)) 0#32) (IntOp.addi (v (ix1 e)) 1024#32) (v (ix1 e)) = _
  rw [wrap_select, hv, if_neg]
  rw [toInt_node]
  omega

/-- The start word of edge e made of the source column is the source node itself: the word is not negative, so the
    normalising select keeps it. -/
theorem WRAP_ROW_apply (e : Fin 1049600) : Stage.WRAP Stage.ROW (ix2 e 0) = BitVec.ofNat 32 (Cert.Spec.rowOf e).val :=
  WRAP_of_node _ e _ (ROW_apply e)

/-- The start word of edge e made of the target column is the target node itself. -/
theorem WRAP_COL_apply (e : Fin 1049600) : Stage.WRAP Stage.COL (ix2 e 0) = BitVec.ofNat 32 (Cert.Spec.colOf e).val :=
  WRAP_of_node _ e _ (COL_apply e)

/-- Read signed and clamped into the rows [0, 1023], the word of a node number is that node. -/
theorem clamp_node (n : Fin 1024) : min (BitVec.ofNat 32 n.val).toInt.toNat (1024 - 1) = n.val := by
  rw [toInt_node, Int.toNat_natCast]
  have := n.isLt
  omega

end Cert.ReferenceIdeal.Hand

end
-- ==== Proof.RefDense.lean ====
/-
  The reference's two dense layers read at an index: the hidden layer and its image under the second weights.
-/
import proofs.«110136_g88562225643607_cont_sun_c4_858_3_alg».proof.Proof.RefStages
import proofs.«110136_g88562225643607_cont_sun_c4_858_3_alg».proof.Proof.Spec
import proofs.«110136_g88562225643607_cont_sun_c4_858_3_alg».proof.Proof.LibRowGatherScatter
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The matrix product's operand indices, axis by axis -/

/-- The left operand's row coordinate is the result's row coordinate. -/
theorem lhs_dense_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

/-- The left operand's column coordinate is the contraction coordinate. -/
theorem lhs_dense_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q

/-- The right operand's row coordinate is the contraction coordinate. -/
theorem rhs_dense_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q

/-- The right operand's column coordinate is the result's column coordinate. -/
theorem rhs_dense_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-! ## The matrix product at an index -/

/-- The product of a [1024, 128] array with a [128, 128] array at (n, j): the sum over k of left (n, k) times right (k, j). -/
theorem dense_apply (l : FVec Ideal S1024x128 .f32) (r : FVec Ideal S128x128 .f32) (n : Fin 1024) (j : Fin 128) :
    Host.dotGeneral (F := Ideal) dot_S1024x128_S128x128_S1024x128_1_0_0_1_n_n none l r (ix2 n j)
      = ∑ k : Fin 128, l (ix2 n k) * r (ix2 k j) := by
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 n j) ((ValueIdx.contrEquiv1 dot_S1024x128_S128x128_S1024x128_1_0_0_1_n_n 128 rfl rfl).symm k) = ix2 n k :=
    funext fun a => Fin.ext (by
      match a with
      | ⟨0, _⟩ => exact lhs_dense_0 _ _
      | ⟨1, _⟩ => exact (lhs_dense_1 _ _).trans hk)
  have er : dot_S1024x128_S128x128_S1024x128_1_0_0_1_n_n.rhsIdx (ix2 n j) ((ValueIdx.contrEquiv1 dot_S1024x128_S128x128_S1024x128_1_0_0_1_n_n 128 rfl rfl).symm k) = ix2 k j :=
    funext fun a => Fin.ext (by
      match a with
      | ⟨0, _⟩ => exact (rhs_dense_0 _ _).trans hk
      | ⟨1, _⟩ => exact rhs_dense_1 _ _)
  rw [el, er]

/-- The product with the transposed weights at (n, j): the sum over k of left (n, k) times weight (j, k). -/
theorem denseT_apply (l : FVec Ideal S1024x128 .f32) (w : FVec Ideal S128x128 .f32) (n : Fin 1024) (j : Fin 128) :
    Host.dotGeneral (F := Ideal) dot_S1024x128_S128x128_S1024x128_1_0_0_1_n_n none l
        (transpose S128x128 [1, 0] w transposes_S128x128_S128x128_1_0) (ix2 n j)
      = ∑ k : Fin 128, l (ix2 n k) * w (ix2 j k) := by
  refine (dense_apply l _ n j).trans ?_
  refine Finset.sum_congr rfl fun k _ => ?_
  exact congrArg (l (ix2 n k) * ·) (transpose_ix2_apply w transposes_S128x128_S128x128_1_0 k j)

/-! ## The two layers -/

/-- The hidden layer at (n, j): the rectified sum over k of feature (n, k) times first weight (j, k), plus bias j
    (the weights enter transposed, so the contraction runs along their second axis). -/
theorem HID_apply (x : FVec Ideal S1024x128 .f32) (w1 : FVec Ideal S128x128 .f32) (b1 : FVec Ideal S128 .f32)
    (n : Fin 1024) (j : Fin 128) :
    Stage.HID (F := Ideal) x w1 b1 (ix2 n j)
      = Cert.Spec.hid (Cert.Spec.matOf x) (Cert.Spec.matOf w1) (Cert.Spec.vecOf b1) n j := by
  unfold Stage.HID
  refine (reluOps_apply bcast_S_S1024x128 _ (ix2 n j)).trans ?_
  unfold Cert.Spec.hid Cert.Spec.matOf Cert.Spec.vecOf
  refine congrArg (max · 0) ?_
  refine (addf_apply _ _ (ix2 n j)).trans ?_
  refine congrArg₂ (· + ·) (denseT_apply x w1 n j) ?_
  refine (bcastRows_apply bcast_S1x128_S1024x128_0_1 _ n j).trans ?_
  exact bcastRow_apply bcast_S128_S1x128_1 b1 0 j

/-- Its image under the second weights at (n, f): the sum over j of hidden (n, j) times second weight (f, j). -/
theorem XW_apply (x : FVec Ideal S1024x128 .f32) (w1 : FVec Ideal S128x128 .f32) (b1 : FVec Ideal S128 .f32)
    (wg : FVec Ideal S128x128 .f32) (n : Fin 1024) (f : Fin 128) :
    Stage.XW (F := Ideal) x w1 b1 wg (ix2 n f)
      = Cert.Spec.xw (Cert.Spec.matOf x) (Cert.Spec.matOf w1) (Cert.Spec.vecOf b1) (Cert.Spec.matOf wg) n f := by
  unfold Stage.XW
  refine (denseT_apply (Stage.HID (F := Ideal) x w1 b1) wg n f).trans ?_
  unfold Cert.Spec.xw
  refine Finset.sum_congr rfl fun j _ => ?_
  exact congrArg (· * wg (ix2 f j)) (HID_apply x w1 b1 n j)

end Cert.ReferenceIdeal.Hand

end
-- ==== Proof.LibVecGatherScatter.lean ====
/-
  GENERAL LEMMAS: the gather of single entries of a vector [N] at a column [E, 1] of start words, and the accumulating
  scatter of a vector [E] of updates into a vector [N] at such a column, each READ AT AN INDEX over the extended
  reals, for ARBITRARY extents N (entries) and E (edges).
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Mathlib.Algebra.BigOperators.Group.Finset.Basic
import Mathlib.Algebra.BigOperators.Fin

noncomputable section

open scoped BigOperators

namespace Cert.ReferenceIdeal.Hand

open Idealize.ShloMosaic Idealize.ShloMosaic.ValueIdx

section Gather
variable {α : Type}

/-- The dimension numbers of a gather of single entries of a vector [N] at a column [E, 1] of start words. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather at e: the vector at the clamped signed start word of e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of a scatter of single updates [E] into a vector [N] at a column [E, 1] of start words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Aux

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
private theorem vecScatter_start_zero (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0 (the only axis is inserted). -/
private theorem vecScatter_window_zero (e : Fin E) :
    (vecScatter N E wf).window (ix1 e) 0 = 0 := by
  unfold ScatterDims.window
  rw [dif_neg]
  show (0 : Fin 1) ∉ (List.finRange 1).filter (· ∉ [(0 : Fin 1)])
  decide

/-- Update e lands at d exactly when the start word of e, read signed, is d. -/
private theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    constructor
    · intro hf
      have e0 := congrArg (fun f => (f 0).val) hf
      simp only [vecScatter_start_zero, vecScatter_window_zero] at e0
      have h0 := h 0
      rw [vecScatter_start_zero, vecScatter_window_zero] at h0
      have : ((ix1 d : (⟨1, ![N]⟩ : Shape).Idx) 0).val = d.val := rfl
      omega
    · intro hd
      funext a
      obtain rfl : a = 0 := Subsingleton.elim _ _
      refine Fin.ext ?_
      show ((vecScatter N E wf).start (ix1 e) idx 0 + ((vecScatter N E wf).window (ix1 e) 0 : ℕ)).toNat = d.val
      rw [vecScatter_start_zero, vecScatter_window_zero]
      omega
  · next h =>
    constructor
    · intro hf
      exact absurd hf (by simp)
    · intro hd
      exfalso
      apply h
      intro a
      obtain rfl : a = 0 := Subsingleton.elim _ _
      show 0 ≤ (vecScatter N E wf).start (ix1 e) idx 0 + ((vecScatter N E wf).window (ix1 e) 0 : ℕ)
        ∧ (vecScatter N E wf).start (ix1 e) idx 0 + ((vecScatter N E wf).window (ix1 e) 0 : ℕ) < (N : ℤ)
      rw [vecScatter_start_zero, vecScatter_window_zero]
      have := d.isLt
      omega

end Aux

/-- THE ACCUMULATING ENTRY SCATTER AT d: the operand's entry plus the sum, over the edges whose start word read signed
    is d, of the update of that edge. -/
theorem vecScatterAdd_apply {N E w : Nat} (wf : ScatterDims.WF ⟨1, ![N]⟩ ⟨2, ![E, 1]⟩ ⟨1, ![E]⟩ [] [0] [0] 1)
    (idx : IVec ⟨2, ![E, 1]⟩ w) {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Scatter

end Cert.ReferenceIdeal.Hand

end
-- ==== Proof.RefEdges.lean ====
/-
  The reference's per-edge and per-node scalars read at an index: weights, degrees, normalisers, coefficients.
-/
import proofs.«110136_g88562225643607_cont_sun_c4_858_3_alg».proof.Proof.RefStages
import proofs.«110136_g88562225643607_cont_sun_c4_858_3_alg».proof.Proof.Spec
import proofs.«110136_g88562225643607_cont_sun_c4_858_3_alg».proof.Proof.EdgeCols
import proofs.«110136_g88562225643607_cont_sun_c4_858_3_alg».proof.Proof.LibRowGatherScatter
import proofs.«110136_g88562225643607_cont_sun_c4_858_3_alg».proof.Proof.LibVecGatherScatter
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- The adjacency array flattened to [1048576], read at k = 1024 r + c, is the entry (0, 0, r, c). -/
private theorem flat_apply (a : FVec Ideal S1x1x1024x1024 .f32) (r c : Fin 1024) (k : Fin 1048576)
    (hk : k.val = r.val * 1024 + c.val) :
    shapeCast S1048576
        (shapeCast S1024x1024 (shapeCast S1x1024x1024 a shapeCasts_S1x1x1024x1024_S1x1024x1024)
          shapeCasts_S1x1024x1024_S1024x1024)
        shapeCasts_S1024x1024_S1048576 (ix1 k) = a (ix4 0 0 r c) := by
  refine (shapeCast_apply _ _ (ix1 k) (ix2 r c) ?_).trans ?_
  · rw [Shape.rowMajor_val_two, Shape.rowMajor_val_one]
    show r.val * 1024 + c.val = k.val
    omega
  refine (shapeCast_1ab_ab_apply _ _ r c).trans ?_
  exact shapeCast_1abc_abc_apply _ _ 0 r c

/-- The bit of "v is not 0", read unsigned as a real, is 1 where v is not 0 and 0 where it is. -/
private theorem une_zero_weight (v : EReal) :
    (((Ideal.cmp .une v 0).toNat : ℝ) : EReal) = if v ≠ 0 then 1 else 0 := by
  unfold Ideal.cmp
  by_cases h : v = 0
  · simp [h]
  · simp [h]

/-- The weight of edge e: for a pair edge the flattened adjacency entry (row e / 1024, column e % 1024 of the matrix)
    compared with zero and converted, which is 1 or 0; for a self loop the constant 1. -/
theorem EW_apply (a : FVec Ideal S1x1x1024x1024 .f32) (e : Fin 1049600) :
    Stage.EW (F := Ideal) a (ix1 e) = Cert.Spec.ew (Cert.Spec.adjOf a) e := by
  unfold Stage.EW Cert.Spec.ew
  by_cases he : e.val < 1048576
  · rw [if_pos he]
    refine (concatenate_pair_apply_left (t := S1049600) (s₁ := S1048576) (s₂ := S1024) (0 : Fin 1) _ _
      concatenates_S1048576_S1024_S1049600_d0 (ix1 e) rfl (ix1 ⟨e.val, he⟩) ?_).trans ?_
    · intro b
      obtain rfl : b = 0 := Subsingleton.elim _ _
      rfl
    · have hr : Cert.Spec.rowOf e = ⟨e.val / 1024, by omega⟩ := by
        unfold Cert.Spec.rowOf
        rw [dif_pos he]
      have hc : Cert.Spec.colOf e = ⟨e.val % 1024, by omega⟩ := by
        unfold Cert.Spec.colOf
        rw [dif_pos he]
      rw [hr, hc]
      show (((Ideal.cmp .une _ _).toNat : ℝ) : EReal) = _
      rw [flat_apply a ⟨e.val / 1024, by omega⟩ ⟨e.val % 1024, by omega⟩ ⟨e.val, he⟩ (by show e.val = e.val / 1024 * 1024 + e.val % 1024; omega),
        bcastScalar_apply, constant_apply, Ideal.ofBits_zero_f32]
      exact une_zero_weight _
  · rw [if_neg he]
    refine (concatenate_pair_apply_right (t := S1049600) (s₁ := S1048576) (s₂ := S1024) (0 : Fin 1) _ _
      concatenates_S1048576_S1024_S1049600_d0 (ix1 e) rfl rfl (ix1 ⟨e.val - 1048576, by have := e.isLt; omega⟩) ?_ ?_).trans ?_
    · intro b hb
      obtain rfl : b = 0 := Subsingleton.elim _ _
      exact absurd rfl hb
    · show e.val - 1048576 + 1048576 = e.val
      omega
    · rw [bcastScalar_apply, constant_apply, Ideal.ofBits_one_f32]

/-- The zero vector reads 0 at every node. -/
private theorem ZERO1_apply (c : Fin 1024) : Stage.ZERO1 (F := Ideal) (ix1 c) = 0 := by
  unfold Stage.ZERO1
  rw [bcastScalar_apply, constant_apply, Ideal.ofBits_zero_f32]

/-- The degree of node c: zero plus the weights of the edges whose target is c. -/
theorem DEG_apply (a : FVec Ideal S1x1x1024x1024 .f32) (c : Fin 1024) :
    Stage.DEG (F := Ideal) a (ix1 c) = Cert.Spec.degR (Cert.Spec.adjOf a) c := by
  unfold Stage.DEG Cert.Spec.degR
  refine (vecScatterAdd_apply (N := 1024) (E := 1049600) Gen.scatter_S1024_S1049600x1_S1049600_n_0_0_1_wf
    (Stage.WRAP Stage.COL) (Stage.ZERO1 (F := Ideal)) (Stage.EW a) c).trans ?_
  rw [ZERO1_apply, zero_add]
  refine Finset.sum_congr (Finset.filter_congr fun e _ => ?_) fun e _ => EW_apply a e
  rw [WRAP_COL_apply, toInt_node]
  constructor
  · intro h
    exact Fin.ext (by exact_mod_cast h)
  · intro h
    rw [h]

/-- A select on the bit of "d is above 0" is the `if` on 0 < d. -/
private theorem select_ogt_zero (d p q : EReal) :
    Scalar.select (Ideal.cmp .ogt d 0) p q = if 0 < d then p else q := by
  unfold Ideal.cmp
  by_cases h : 0 < d
  · simp only [h, decide_true, if_true]
    exact select_one _ _
  · simp only [h, decide_false, if_false]
    exact select_zero _ _

/-- The host's power at an index is the power of the entries. -/
private theorem hostPowf_apply {s : Shape} {φ : FTy} (x y : FVec Ideal s φ) (i : s.Idx) :
    Host.powf x y i = Ideal.pow (x i) (y i) := rfl

/-- A word spread over the nodes reads, at every node, the extended real the word encodes. -/
private theorem bcastWord_apply (b : BitVec 32) (c : Fin 1024) :
    broadcastInDim S1024 ![] bcast_S_S1024 (constant (F := Ideal) S_ .f32 b) (ix1 c) = Ideal.ofBits .f32 b := by
  rw [bcastScalar_apply, constant_apply]

/-- The normaliser of node c: degree ^ (−1/2) where the degree is above zero, zero elsewhere. -/
theorem DINV_apply (a : FVec Ideal S1x1x1024x1024 .f32) (c : Fin 1024) :
    Stage.DINV (F := Ideal) a (ix1 c) = Cert.Spec.dinvR (Cert.Spec.adjOf a) c := by
  unfold Stage.DINV Cert.Spec.dinvR
  rw [select_apply, cmpf_apply, Ideal.cmpf_def, hostPowf_apply, bcastWord_apply, bcastWord_apply]
  rw [DEG_apply, ZERO1_apply, Ideal.ofBits_zero_f32]
  exact select_ogt_zero _ _ _

/-- The coefficient of edge e: its source's normaliser times its target's normaliser times its weight. -/
theorem NORM_apply (a : FVec Ideal S1x1x1024x1024 .f32) (e : Fin 1049600) :
    Stage.NORM (F := Ideal) a (ix1 e)
      = (Cert.Spec.dinvR (Cert.Spec.adjOf a) (Cert.Spec.rowOf e) * Cert.Spec.dinvR (Cert.Spec.adjOf a) (Cert.Spec.colOf e))
          * Cert.Spec.ew (Cert.Spec.adjOf a) e := by
  have hg : ∀ (v : IVec S1049600x1 32) (n : Fin 1024), v (ix2 e 0) = BitVec.ofNat 32 n.val →
      Host.gather gather_S1024_S1049600x1_S1049600_n_0_n_n_0_1_1 (Stage.DINV (F := Ideal) a) v (ix1 e)
        = Cert.Spec.dinvR (Cert.Spec.adjOf a) n := by
    intro v n hv
    refine (vecGather_apply (N := 1024) (E := 1049600) (by decide)
      Gen.gather_S1024_S1049600x1_S1049600_n_0_n_n_0_1_1_wf (Stage.DINV (F := Ideal) a) v e).trans ?_
    refine (congrArg (Stage.DINV (F := Ideal) a) (congrArg ix1 (Fin.ext ?_))).trans (DINV_apply a n)
    show min (v (ix2 e 0)).toInt.toNat (1024 - 1) = n.val
    rw [hv]
    exact clamp_node n
  unfold Stage.NORM
  rw [mulf_apply, mulf_apply, hg _ _ (WRAP_ROW_apply e), hg _ _ (WRAP_COL_apply e), EW_apply]

end Cert.ReferenceIdeal.Hand

end
-- ==== Proof.RefValue.lean ====
/-
  The reference's result read at an index is the edge-list form of the layer.
-/
import proofs.«110136_g88562225643607_cont_sun_c4_858_3_alg».proof.Proof.RefStages
import proofs.«110136_g88562225643607_cont_sun_c4_858_3_alg».proof.Proof.Spec
import proofs.«110136_g88562225643607_cont_sun_c4_858_3_alg».proof.Proof.EdgeCols
import proofs.«110136_g88562225643607_cont_sun_c4_858_3_alg».proof.Proof.RefDense
import proofs.«110136_g88562225643607_cont_sun_c4_858_3_alg».proof.Proof.RefEdges
import proofs.«110136_g88562225643607_cont_sun_c4_858_3_alg».proof.Proof.LibRowGatherScatter
import Idealize.ShloMosaic.Lib.ValueIdx
import Idealize.ShloMosaic.Lib.Pipeline.Value
import Idealize.ShloMosaic.Lib.IdealHost

noncomputable section

open scoped BigOperators

namespace Cert.ReferenceIdeal.Hand

open Cert.ReferenceIdeal Cert.ReferenceIdeal.Gen Idealize.ShloMosaic Idealize.ShloMosaic.ValueIdx

/-- The message of edge e at feature f: the edge's coefficient times its source's row of the second layer. -/
theorem MSG_apply (x : FVec Ideal S1024x128 .f32) (a : FVec Ideal S1x1x1024x1024 .f32) (w1 : FVec Ideal S128x128 .f32)
    (b1 : FVec Ideal S128 .f32) (wg : FVec Ideal S128x128 .f32) (e : Fin 1049600) (f : Fin 128) :
    Stage.MSG (F := Ideal) x a w1 b1 wg (ix2 e f)
      = ((Cert.Spec.dinvR (Cert.Spec.adjOf a) (Cert.Spec.rowOf e) * Cert.Spec.dinvR (Cert.Spec.adjOf a) (Cert.Spec.colOf e))
          * Cert.Spec.ew (Cert.Spec.adjOf a) e)
        * Cert.Spec.xw (Cert.Spec.matOf x) (Cert.Spec.matOf w1) (Cert.Spec.vecOf b1) (Cert.Spec.matOf wg) (Cert.Spec.rowOf e) f := by
  unfold Stage.MSG
  refine (mulf_apply _ _ _).trans ?_
  refine congrArg₂ (· * ·) ?_ ?_
  · refine (bcastFeat_apply bcast_S1049600x1_S1049600x128_0_1 _ e f).trans ?_
    refine (bcastCol_apply bcast_S1049600_S1049600x1_0 _ e 0).trans ?_
    exact NORM_apply a e
  · have hg : gather_S1024x128_S1049600x1_S1049600x128_1_0_n_n_0_1_1128
        = rowGather 1024 1049600 128 Gen.gather_S1024x128_S1049600x1_S1049600x128_1_0_n_n_0_1_1128_wf := rfl
    rw [hg]
    refine (rowGather_apply_of_eq (by norm_num) _ _ _ e f _ (WRAP_ROW_apply e)).trans ?_
    have hr : (⟨min (BitVec.ofNat 32 (Cert.Spec.rowOf e).val).toInt.toNat (1024 - 1), by omega⟩ : Fin 1024)
        = Cert.Spec.rowOf e := Fin.ext (clamp_node _)
    rw [hr]
    exact XW_apply x w1 b1 wg (Cert.Spec.rowOf e) f

/-- The reference's result at node c, feature f: the messages of the edges ending in c added up, plus the bias —
    the edge-list form. -/
theorem OUT_apply (x : FVec Ideal S1024x128 .f32) (a : FVec Ideal S1x1x1024x1024 .f32) (w1 : FVec Ideal S128x128 .f32)
    (b1 : FVec Ideal S128 .f32) (wg : FVec Ideal S128x128 .f32) (bg : FVec Ideal S128 .f32) (c : Fin 1024) (f : Fin 128) :
    Stage.OUT (F := Ideal) x a w1 b1 wg bg (ix2 c f)
      = Cert.Spec.R (Cert.Spec.adjOf a) (Cert.Spec.matOf x) (Cert.Spec.matOf w1) (Cert.Spec.vecOf b1) (Cert.Spec.matOf wg)
          (Cert.Spec.vecOf bg) c f := by
  unfold Stage.OUT
  refine (addf_apply _ _ _).trans ?_
  unfold Cert.Spec.R
  refine congrArg₂ (· + ·) ?_ ?_
  · have hs : scatter_S1024x128_S1049600x1_S1049600x128_1_0_0_1
        = rowScatter 1024 1049600 128 Gen.scatter_S1024x128_S1049600x1_S1049600x128_1_0_0_1_wf := rfl
    rw [hs]
    refine (rowScatterAdd_apply _ _ _ _ c f).trans ?_
    rw [bcastScalar_apply, constant_apply, Ideal.ofBits_zero_f32, zero_add]
    refine Finset.sum_congr (Finset.filter_congr fun e _ => ?_) fun e _ => MSG_apply x a w1 b1 wg e f
    rw [WRAP_COL_apply, toInt_node, Nat.cast_inj]
    exact Fin.val_inj
  · refine (bcastRows_apply bcast_S1x128_S1024x128_0_1 _ c f).trans ?_
    exact bcastRow_apply bcast_S128_S1x128_1 bg 0 f

end Cert.ReferenceIdeal.Hand

end
-- ==== Proof.lean ====
/-
  A dense graph-convolution layer against its edge-list reference, over the extended reals.

  The kernel computes, for an adjacency matrix A, features X, weights W1, Wg and biases b1, bg,
      out c f = dinv c · (Σ_r w r c · (dinv r · xw r f) + dinv c · xw c f) + bg f,
  where w r c is 1 if A r c ≠ 0 and 0 otherwise, dinv c = (Σ_r w r c + 1)^(−1/2), and xw = relu (X W1ᵀ + b1) Wgᵀ.
  The reference lists every ordered node pair as an edge of weight w, adds one self loop of weight 1 per node, sums the
  weights at the edges' targets into degrees, normalises each edge by the reciprocal square roots of its two ends' degrees,
  gathers the source rows of xw, scales them and adds them up at the targets.  Both are the same sum: the edges that end
  in c are the pairs (r, c) and the self loop of c, the degree is a real number that is at least 1 (where the power
  −1/2 is the reciprocal square root), and on finite features a nonnegative real factor distributes over the finite sum.

  The kernel's frames and its result array come from the generated frame and value modules; the reference's run is read
  operation by operation; the bridge between the two forms is the specification module's.
-/
import proofs.«110136_g88562225643607_cont_sun_c4_858_3_alg».proof.Defs
import proofs.«110136_g88562225643607_cont_sun_c4_858_3_alg».proof.Proof.Gen.Kernel
import proofs.«110136_g88562225643607_cont_sun_c4_858_3_alg».proof.Proof.Gen.Kernel.Frame
import proofs.«110136_g88562225643607_cont_sun_c4_858_3_alg».proof.Proof.Gen.KernelIdeal
import proofs.«110136_g88562225643607_cont_sun_c4_858_3_alg».proof.Proof.Gen.KernelIdeal.Frame
import proofs.«110136_g88562225643607_cont_sun_c4_858_3_alg».proof.Proof.Gen.KernelIdeal.Value
import proofs.«110136_g88562225643607_cont_sun_c4_858_3_alg».proof.Proof.Gen.ReferenceIdeal
import proofs.«110136_g88562225643607_cont_sun_c4_858_3_alg».proof.Proof.Gen.Pre_finite_inputs
import proofs.«110136_g88562225643607_cont_sun_c4_858_3_alg».proof.Proof.Spec
import proofs.«110136_g88562225643607_cont_sun_c4_858_3_alg».proof.Proof.Bridge
import proofs.«110136_g88562225643607_cont_sun_c4_858_3_alg».proof.Proof.Finite
import proofs.«110136_g88562225643607_cont_sun_c4_858_3_alg».proof.Proof.KernelValue
import proofs.«110136_g88562225643607_cont_sun_c4_858_3_alg».proof.Proof.RefRun
import proofs.«110136_g88562225643607_cont_sun_c4_858_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing: there is nothing to preserve. -/
theorem preserves : Cert.preserves_Kernel_KernelIdeal := trivial

/-- From memories that agree on the arguments, the kernel ends at the dense form of its arguments and the reference at
    the edge-list form of the same arrays, which is the dense form because the precondition makes every entry real. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  obtain ⟨hx, _, hw1, hb1, hwg, _⟩ := Cert.Pre_finite_inputs.Hand.finite_of_pre _ _ _ _ _ _ (hpre c)
  refine Cert.Spec.eq_GArr_of _ _ _ _ _ _ _ fun n f => ?_
  refine (Cert.ReferenceIdeal.Hand.OUT_apply _ _ _ _ _ _ n f).trans ?_
  exact Cert.Spec.R_eq_G _ _ _ _ _ _ (fun p q => hx (ix2 p q)) (fun p q => hw1 (ix2 p q)) (fun q => hb1 (ix1 q))
    (fun p q => hwg (ix2 p q)) n f

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
